-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x64 : Shape := ⟨2, ![256, 64]⟩
abbrev S128x1 : Shape := ⟨2, ![128, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S8192x256 .f32) (main_arg1 : IVec S8192x8192 32) (main_arg2 : FVec F S256x64 .f32) (main_arg3 : FVec F S128x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S256x64 : Shape := ⟨2, ![256, 64]⟩
abbrev S128x1 : Shape := ⟨2, ![128, 1]⟩
abbrev S8192x64 : Shape := ⟨2, ![8192, 64]⟩
abbrev S64x1 : Shape := ⟨2, ![64, 1]⟩
abbrev S8192x1 : Shape := ⟨2, ![8192, 1]⟩
abbrev S1x8192 : Shape := ⟨2, ![1, 8192]⟩
abbrev S_ : Shape := ⟨0, ![]⟩
abbrev S8192x65 : Shape := ⟨2, ![8192, 65]⟩
abbrev S1024x1 : Shape := ⟨2, ![1024, 1]⟩
abbrev S1x1024 : Shape := ⟨2, ![1, 1024]⟩
abbrev S1024x1024 : Shape := ⟨2, ![1024, 1024]⟩
abbrev S1024x64 : Shape := ⟨2, ![1024, 64]⟩
abbrev S1024x65 : Shape := ⟨2, ![1024, 65]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x64, .f32⟩
  | .hbm, ⟨3, _⟩ => ⟨S128x1, .f32⟩
  | .hbm, ⟨4, _⟩ => ⟨S8192x64, .f32⟩
  | .hbm, ⟨5, _⟩ => ⟨S64x1, .f32⟩
  | .hbm, ⟨6, _⟩ => ⟨S64x1, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x64, .bf16⟩
  | .hbm, ⟨11, _⟩ => ⟨S_, .bf16⟩
  | .hbm, ⟨12, _⟩ => ⟨S8192x1, .bf16⟩
  | .hbm, ⟨13, _⟩ => ⟨S8192x65, .bf16⟩
  | .hbm, ⟨14, _⟩ => ⟨S8192x64, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1024, .i32⟩
  | .local _ .vmem, ⟨5, _⟩ => ⟨S1024x1024, .i32⟩
  | .local _ .vmem, ⟨6, _⟩ => ⟨S8192x65, .bf16⟩
  | .local _ .vmem, ⟨7, _⟩ => ⟨S1024x64, .f32⟩
  | .local _ .vmem, ⟨8, _⟩ => ⟨S1024x64, .f32⟩
  | .local _ .vmem, ⟨9, _⟩ => ⟨S1024x1, .f32⟩
  | .local _ .vmem, ⟨10, _⟩ => ⟨S1024x65, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v28 : BitVec 32 := Scalar.muli arg1 c1024_i32
  v28
def k0_off1 (i : grid0.Coords) : Fin 2 → Nat :=
  let arg1 : BitVec 32 := BitVec.ofNat 32 (i 1).val
  let c1024_i32 : BitVec 32 := 1024#32
  let v28 : BitVec 32 := Scalar.muli arg1 c1024_i32
  let v29 : BitVec 32 := v28
  let v30 : Index := Scalar.indexCast v29
  let c0_11 : Index := 0#32
  ![v30.toNat, 0]
def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8192x65 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S128x1_S64x1_0_0 : S128x1.Slices ![0, 0] S64x1
  slices_S128x1_S64x1_64_0 : S128x1.Slices ![64, 0] S64x1
  shapeCasts_S8192x1_S1x8192 : S8192x1.ShapeCasts S1x8192
  bitsLt_bf16_f32 : FTy.bits .bf16 < FTy.bits .f32
  bcast_S_S8192x1 : S_.BroadcastsInDim S8192x1 (![] : Fin 0 → Fin S8192x1.rank)
  concatenates_S8192x64_S8192x1_S8192x65_d1 : Shape.Concatenates [S8192x64, S8192x1] S8192x65 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x65_S1024x65_0_0 : ∀ a, (![0, 0] : Fin 2 → Nat) a + S1024x65.size a ≤ S1024x65.size a
  h_S1024x65 : 0 < S1024x65.numel
  shapeCasts_S1024x65_S1024x65 : S1024x65.ShapeCasts S1024x65
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x65 : S1024x1.Broadcasts S1024x65
  slices_S1024x65_o0_64_S1024x1 : S1024x65.Slices ![0, 64] S1024x1
  slices_S1024x65_o0_0_S1024x64 : S1024x65.Slices ![0, 0] S1024x64
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  dot_S8192x256_S256x64_S8192x64_1_0_0_1_n_n_wf : DotDims.WF S8192x256 S256x64 S8192x64 [1] [0] [0] [1] [] []
  dot_S8192x64_S64x1_S8192x1_1_0_0_1_n_n_wf : DotDims.WF S8192x64 S64x1 S8192x1 [1] [0] [0] [1] [] []
  dot_S1024x1024_S1024x65_S1024x65_1_0_0_1_n_n_wf : DotDims.WF S1024x1024 S1024x65 S1024x65 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x65.size a ≤ S8192x65.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .i32 = 32 ∨ (Rect.block (s := S8192x8192) S1024x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x65.size a ≤ S8192x65.size a
  hwx0_3 : ∀ i : grid0.Coords, EltTy.bits .bf16 = 32 ∨ (Rect.block (s := S8192x65) S8192x65.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S1024x1024_S1024x65_S1024x65_1_0_0_1_n_n : DotDims S1024x1024 S1024x65 S1024x65 where
  lhsContracting := [1]
  rhsContracting := [0]
  lhsNonContracting := [0]
  rhsNonContracting := [1]
  lhsBatch := []
  rhsBatch := []
  wf := dot_S1024x1024_S1024x65_S1024x65_1_0_0_1_n_n_wf

abbrev win0_0 : Pipeline.Window sig grid0 :=
  Pipeline.Window.ofSpec (Memref.whole main_v3) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8192x65.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x64 : Shape := ⟨2, ![256, 64]⟩
abbrev S128x1 : Shape := ⟨2, ![128, 1]⟩
abbrev S8192x64 : Shape := ⟨2, ![8192, 64]⟩
abbrev S64x1 : Shape := ⟨2, ![64, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x64, .f32⟩
  | .hbm, ⟨3, _⟩ => ⟨S128x1, .f32⟩
  | .hbm, ⟨4, _⟩ => ⟨S8192x64, .f32⟩
  | .hbm, ⟨5, _⟩ => ⟨S64x1, .f32⟩
  | .hbm, ⟨6, _⟩ => ⟨S64x1, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x64, .f32⟩
  | .hbm, ⟨43, _⟩ => ⟨S_, .f32⟩
  | .hbm, ⟨44, _⟩ => ⟨S8192x64, .f32⟩
  | .hbm, ⟨45, _⟩ => ⟨S8192x64, .i1⟩
  | .hbm, ⟨46, _⟩ => ⟨S_, .f32⟩
  | .hbm, ⟨47, _⟩ => ⟨S8192x64, .f32⟩
  | .hbm, ⟨48, _⟩ => ⟨S8192x64, .i1⟩
  | .hbm, ⟨49, _⟩ => ⟨S_, .f32⟩
  | .hbm, ⟨50, _⟩ => ⟨S_, .f32⟩
  | .hbm, ⟨51, _⟩ => ⟨S8192x64, .f32⟩
  | .hbm, ⟨52, _⟩ => ⟨S8192x64, .f32⟩
  | .hbm, ⟨53, _⟩ => ⟨S8192x64, .f32⟩
  | .hbm, ⟨54, _⟩ => ⟨S_, .f32⟩
  | .hbm, ⟨55, _⟩ => ⟨S8192x64, .f32⟩
  | .hbm, ⟨56, _⟩ => ⟨S8192x64, .f32⟩
  | .hbm, ⟨57, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_cst_0 : Ref sig .tc := ⟨.hbm, 46, rfl⟩
abbrev main_call2_v2 : Ref sig .tc := ⟨.hbm, 47, rfl⟩
abbrev main_call2_v3 : Ref sig .tc := ⟨.hbm, 48, rfl⟩
abbrev main_call2_cst_1 : Ref sig .tc := ⟨.hbm, 49, rfl⟩
abbrev main_call2_call0_v0 : Ref sig .tc := ⟨.hbm, 50, rfl⟩
abbrev main_call2_call0_v1 : Ref sig .tc := ⟨.hbm, 51, rfl⟩
abbrev main_call2_v4 : Ref sig .tc := ⟨.hbm, 52, rfl⟩
abbrev main_call2_v5 : Ref sig .tc := ⟨.hbm, 53, rfl⟩
abbrev main_call2_cst_2 : Ref sig .tc := ⟨.hbm, 54, rfl⟩
abbrev main_call2_v6 : Ref sig .tc := ⟨.hbm, 55, rfl⟩
abbrev main_call2_v7 : Ref sig .tc := ⟨.hbm, 56, rfl⟩
abbrev main_v25 : Ref sig .tc := ⟨.hbm, 57, rfl⟩

abbrev nD : Nat := 1
abbrev τ : Topo := Topo.v7x

variable {F : FTy → Type} [FloatOps F]

class Facts₀ : Prop where
  slices_S128x1_S64x1_0_0 : S128x1.Slices ![0, 0] S64x1
  slices_S128x1_S64x1_64_0 : S128x1.Slices ![64, 0] S64x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x64 : S_.BroadcastsInDim S8192x64 (![] : Fin 0 → Fin S8192x64.rank)
  dot_S8192x256_S256x64_S8192x64_1_0_0_1_n_n_wf : DotDims.WF S8192x256 S256x64 S8192x64 [1] [0] [0] [1] [] []
  dot_S8192x64_S64x1_S8192x1_1_0_0_1_n_n_wf : DotDims.WF S8192x64 S64x1 S8192x1 [1] [0] [0] [1] [] []
  dot_S8192x8192_S8192x64_S8192x64_1_0_0_1_n_n_wf : DotDims.WF S8192x8192 S8192x64 S8192x64 [1] [0] [0] [1] [] []

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KerPieces.lean ====
/-
  What one grid point leaves in the two carried scratch buffers (the running row maximum and the accumulator) and,
  at the last key block, in the output block: each is the body's arithmetic (the payloads `k0_pay7`, `k0_pay8`,
  `k0_pay3`) of the point's input blocks and of what the point before left. At the first key block the two scratch
  buffers are first reset (to `-∞` and to `0`) and read back.
-/
import proofs.«430184_j75746043232803_3_alg».proof.Proof.Gen.KernelIdeal.Value
import Idealize.ShloMosaic.Lib.Pipeline.Value
import Idealize.ShloMosaic.Lib.Tactic

set_option maxRecDepth 16384

noncomputable section

namespace Cert.KernelIdeal.KerPieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- The 1024 rows of the augmented feature table that the point's key block reads. -/
abbrev hrows (i : grid0.Coords) (x3 : Vec F S8192x65 .bf16) : Vec F S1024x65 .bf16 :=
  View.ld x3 (Rect.unit (s := S8192x65) (k0_off1 i) S1024x65.size (k0_off1_inb i))

/-- A middle key block: the new running maximum. -/
theorem sB0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x65 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x65 .f32) (harg8 : arg8.IsWhole) (hc0 : ¬cond0_0 i) (hc1 : ¬cond0_1 i)
    (x0 : Vec F S1024x1 .f32) (x1 : Vec F S1x1024 .f32) (x2 : Vec F S1024x1024 .i32) (x3 : Vec F S8192x65 .bf16) (xs0 : Vec F S1024x1 .f32) (xs1 : Vec F S1024x65 .f32) :
    sout0_B_0 c i arg2 harg2 arg3 harg3 arg4 harg4 arg5 harg5 arg6 harg6 arg7 harg7 arg8 harg8 hc0 hc1 x0 x1 x2 x3 xs0 xs1
      = k0_pay7 x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_run_names
  rw [View.canon_unit_zero hz]
  unfold k0_pay2
  simp only [View.readAt_eq_ld, harg2.read_unread, harg3.read_unread, harg4.read_unread, harg5.read_unread, harg7.read_unread, harg8.read_unread,
    View.ld_unit_zero (S := S1024x1) hz, View.ld_unit_zero (S := S1x1024) hz, View.ld_unit_zero (S := S1024x1024) hz,
    View.ld_unit_zero (S := S1024x65) hz, shapeCast_self]

/-- A middle key block: the rescaled accumulator plus the block's weighted features. -/
theorem sB1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x65 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x65 .f32) (harg8 : arg8.IsWhole) (hc0 : ¬cond0_0 i) (hc1 : ¬cond0_1 i)
    (x0 : Vec F S1024x1 .f32) (x1 : Vec F S1x1024 .f32) (x2 : Vec F S1024x1024 .i32) (x3 : Vec F S8192x65 .bf16) (xs0 : Vec F S1024x1 .f32) (xs1 : Vec F S1024x65 .f32) :
    sout0_B_1 c i arg2 harg2 arg3 harg3 arg4 harg4 arg5 harg5 arg6 harg6 arg7 harg7 arg8 harg8 hc0 hc1 x0 x1 x2 x3 xs0 xs1
      = k0_pay8 x0 x1 x2 xs0 (hrows i x3) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_run_names
  rw [View.canon_unit_zero hz]
  unfold k0_pay1
  simp only [View.readAt_eq_ld, harg2.read_unread, harg3.read_unread, harg4.read_unread, harg5.read_unread, harg7.read_unread, harg8.read_unread,
    View.ld_unit_zero (S := S1024x1) hz, View.ld_unit_zero (S := S1x1024) hz, View.ld_unit_zero (S := S1024x1024) hz,
    View.ld_unit_zero (S := S1024x65) hz, shapeCast_self]

/-- The first key block: the running maximum, over the reset value. -/
theorem sA0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x65 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x65 .f32) (harg8 : arg8.IsWhole) (hc0 : cond0_0 i) (hc1 : ¬cond0_1 i)
    (x0 : Vec F S1024x1 .f32) (x1 : Vec F S1x1024 .f32) (x2 : Vec F S1024x1024 .i32) (x3 : Vec F S8192x65 .bf16) :
    sout0_A_0 c i arg2 harg2 arg3 harg3 arg4 harg4 arg5 harg5 arg6 harg6 arg7 harg7 arg8 harg8 hc0 hc1 x0 x1 x2 x3
      = k0_pay7 x0 x1 x2 (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_run_names
  rw [View.canon_cons_unit_zero (S := S1024x1) hz, View.readCov_unit_zero (S := S1024x1) _ hz]
  unfold k0_pay2
  simp only [View.readAt_eq_ld, harg2.read_unread, harg3.read_unread, harg4.read_unread, harg5.read_unread, harg7.read_unread, harg8.read_unread,
    View.ld_unit_zero (S := S1024x1) hz, View.ld_unit_zero (S := S1x1024) hz, View.ld_unit_zero (S := S1024x1024) hz,
    View.ld_unit_zero (S := S1024x65) hz, shapeCast_self]

/-- The first key block: the accumulator, over the reset values. -/
theorem sA1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x65 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x65 .f32) (harg8 : arg8.IsWhole) (hc0 : cond0_0 i) (hc1 : ¬cond0_1 i)
    (x0 : Vec F S1024x1 .f32) (x1 : Vec F S1x1024 .f32) (x2 : Vec F S1024x1024 .i32) (x3 : Vec F S8192x65 .bf16) :
    sout0_A_1 c i arg2 harg2 arg3 harg3 arg4 harg4 arg5 harg5 arg6 harg6 arg7 harg7 arg8 harg8 hc0 hc1 x0 x1 x2 x3
      = k0_pay8 x0 x1 x2 (k0_pay4 (F := F)) (hrows i x3) (k0_pay5 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_run_names
  rw [View.canon_cons_unit_zero (S := S1024x65) hz, View.readCov_unit_zero (S := S1024x1) _ hz, View.readCov_unit_zero (S := S1024x65) _ hz]
  unfold k0_pay1
  simp only [View.readAt_eq_ld, harg2.read_unread, harg3.read_unread, harg4.read_unread, harg5.read_unread, harg7.read_unread, harg8.read_unread,
    View.ld_unit_zero (S := S1024x1) hz, View.ld_unit_zero (S := S1x1024) hz, View.ld_unit_zero (S := S1024x1024) hz,
    View.ld_unit_zero (S := S1024x65) hz, shapeCast_self]

/-- The last key block: the new running maximum. -/
theorem sC0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x65 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x65 .f32) (harg8 : arg8.IsWhole) (hc0 : ¬cond0_0 i) (hc1 : cond0_1 i)
    (x0 : Vec F S1024x1 .f32) (x1 : Vec F S1x1024 .f32) (x2 : Vec F S1024x1024 .i32) (x3 : Vec F S8192x65 .bf16) (xs0 : Vec F S1024x1 .f32) (xs1 : Vec F S1024x65 .f32) :
    sout0_C_0 c i arg2 harg2 arg3 harg3 arg4 harg4 arg5 harg5 arg6 harg6 arg7 harg7 arg8 harg8 hc0 hc1 x0 x1 x2 x3 xs0 xs1
      = k0_pay7 x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_run_names
  rw [View.canon_unit_zero hz]
  unfold k0_pay2
  simp only [View.readAt_eq_ld, harg2.read_unread, harg3.read_unread, harg4.read_unread, harg5.read_unread, harg7.read_unread, harg8.read_unread,
    View.ld_unit_zero (S := S1024x1) hz, View.ld_unit_zero (S := S1x1024) hz, View.ld_unit_zero (S := S1024x1024) hz,
    View.ld_unit_zero (S := S1024x65) hz, shapeCast_self]

/-- The last key block: the accumulator. -/
theorem sC1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x65 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x65 .f32) (harg8 : arg8.IsWhole) (hc0 : ¬cond0_0 i) (hc1 : cond0_1 i)
    (x0 : Vec F S1024x1 .f32) (x1 : Vec F S1x1024 .f32) (x2 : Vec F S1024x1024 .i32) (x3 : Vec F S8192x65 .bf16) (xs0 : Vec F S1024x1 .f32) (xs1 : Vec F S1024x65 .f32) :
    sout0_C_1 c i arg2 harg2 arg3 harg3 arg4 harg4 arg5 harg5 arg6 harg6 arg7 harg7 arg8 harg8 hc0 hc1 x0 x1 x2 x3 xs0 xs1
      = k0_pay8 x0 x1 x2 xs0 (hrows i x3) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_run_names
  rw [View.canon_unit_zero hz]
  unfold k0_pay1
  simp only [View.readAt_eq_ld, harg2.read_unread, harg3.read_unread, harg4.read_unread, harg5.read_unread, harg7.read_unread, harg8.read_unread,
    View.ld_unit_zero (S := S1024x1) hz, View.ld_unit_zero (S := S1x1024) hz, View.ld_unit_zero (S := S1024x1024) hz,
    View.ld_unit_zero (S := S1024x65) hz, shapeCast_self]

/-- The last key block: the output block, the quotient and `elu` of the accumulator just stored. -/
theorem oC4 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x65 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x65 .f32) (harg8 : arg8.IsWhole) (hc0 : ¬cond0_0 i) (hc1 : cond0_1 i)
    (x0 : Vec F S1024x1 .f32) (x1 : Vec F S1x1024 .f32) (x2 : Vec F S1024x1024 .i32) (x3 : Vec F S8192x65 .bf16) (xs0 : Vec F S1024x1 .f32) (xs1 : Vec F S1024x65 .f32) :
    out0_C_4 c i arg2 harg2 arg3 harg3 arg4 harg4 arg5 harg5 arg6 harg6 arg7 harg7 arg8 harg8 hc0 hc1 x0 x1 x2 x3 xs0 xs1
      = k0_pay3 (k0_pay8 x0 x1 x2 xs0 (hrows i x3) xs1) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_run_names
  rw [View.canon_unit_zero hz, View.readCov_unit_zero (S := S1024x65) _ hz]
  unfold k0_pay1
  simp only [View.readAt_eq_ld, harg2.read_unread, harg3.read_unread, harg4.read_unread, harg5.read_unread, harg7.read_unread, harg8.read_unread,
    View.ld_unit_zero (S := S1024x1) hz, View.ld_unit_zero (S := S1x1024) hz, View.ld_unit_zero (S := S1024x1024) hz,
    View.ld_unit_zero (S := S1024x65) hz, shapeCast_self]

end Cert.KernelIdeal.KerPieces

end
-- ==== Proof.KerBlocks.lean ====
/-
  Where a grid point's blocks sit in the arrays. Grid point `t` (of 64) is query block `t / 8` and key block
  `t % 8`: its score block is rows `(t/8)·1024 …` of `s1`, its key-score block columns `(t%8)·1024 …` of `s2ᵀ`, its
  adjacency block the corresponding 1024 × 1024 tile, and the feature rows it reads are rows `(t%8)·1024 …` of the
  whole augmented feature table.
-/
import proofs.«430184_j75746043232803_3_alg».proof.Proof.Gen.KernelIdeal.Value
import proofs.«430184_j75746043232803_3_alg».proof.Proof.KerPieces
import Idealize.ShloMosaic.Lib.ValueIdx

noncomputable section

namespace Cert.KernelIdeal.KerBlocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The printed index maps and the feature-row offset, decided over the 64 grid points. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = t.val % 8
    ∧ win0_3.index t (0 : Fin 2) = 0 ∧ win0_3.index t (1 : Fin 2) = 0
    ∧ win0_4.index t (0 : Fin 2) = t.val / 8 ∧ win0_4.index t (1 : Fin 2) = 0
    ∧ k0_off1 (grid0.coords t) (0 : Fin 2) = t.val % 8 * 1024 ∧ k0_off1 (grid0.coords t) (1 : Fin 2) = 0 :=
  (by decide +kernel : ∀ t : Fin grid0.N, _)

/-- The output block is written back exactly at the last key block of each query block. -/
theorem flush_iff : ∀ t : Fin cfg0.N, (cfg0.win 4).flush t = true ↔ t.val % 8 = 7 :=
  (by decide +kernel : ∀ t : Fin grid0.N, _)

theorem lt64 (t : Fin cfg0.N) : t.val < 64 := lt_of_lt_of_eq t.isLt (show cfg0.N = 64 from N_0)

/-- The query row that row `r` of point `t`'s blocks is. -/
def rowOf (t : Fin cfg0.N) (r : Fin 1024) : Fin 8192 := ⟨t.val / 8 * 1024 + r.val, by have := lt64 t; have := r.isLt; omega⟩

/-- The key that column `k` of point `t`'s blocks is. -/
def keyOf (t : Fin cfg0.N) (k : Fin 1024) : Fin 8192 := ⟨t.val % 8 * 1024 + k.val, by have := k.isLt; omega⟩

/-- The point's input blocks, at their literal types. -/
abbrev xb0 (c : Dev nD) (t : Fin cfg0.N) : Vec Ideal S1024x1 .f32 := iblk m c 0 t
abbrev xb1 (c : Dev nD) (t : Fin cfg0.N) : Vec Ideal S1x1024 .f32 := iblk m c 1 t
abbrev xb2 (c : Dev nD) (t : Fin cfg0.N) : Vec Ideal S1024x1024 .i32 := iblk m c 2 t
abbrev xb3 (c : Dev nD) (t : Fin cfg0.N) : Vec Ideal S8192x65 .bf16 := iblk m c 3 t

/-- The arrays the region finds, at their literal types. -/
abbrev s1arr (c : Dev nD) : Vec Ideal S8192x1 .f32 := V m c main_v3
abbrev s2arr (c : Dev nD) : Vec Ideal S1x8192 .f32 := V m c main_v5
abbrev adjarr (c : Dev nD) : Vec Ideal S8192x8192 .i32 := V m c main_arg1
abbrev haarr (c : Dev nD) : Vec Ideal S8192x65 .bf16 := V m c main_v8

theorem xb0_apply (c : Dev nD) (t : Fin cfg0.N) (r : Fin 1024) :
    xb0 m c t (ix2 r (0 : Fin 1)) = s1arr m c (ix2 (rowOf t r) (0 : Fin 1)) := by
  show V m c main_v3 (((cfg0.win 0).blk t).view.emb (ix2 r (0 : Fin 1))) = V m c main_v3 (ix2 (rowOf t r) (0 : Fin 1))
  obtain ⟨e0, e1, -⟩ := idx_facts t
  refine congrArg _ (funext fun a => Fin.ext ?_)
  match a with
  | ⟨0, _⟩ => show win0_0.index t (0 : Fin 2) * 1024 + 1 * r.val = t.val / 8 * 1024 + r.val; omega
  | ⟨1, _⟩ => show win0_0.index t (1 : Fin 2) * 1 + 1 * 0 = 0; omega

theorem xb1_apply (c : Dev nD) (t : Fin cfg0.N) (k : Fin 1024) :
    xb1 m c t (ix2 (0 : Fin 1) k) = s2arr m c (ix2 (0 : Fin 1) (keyOf t k)) := by
  show V m c main_v5 (((cfg0.win 1).blk t).view.emb (ix2 (0 : Fin 1) k)) = V m c main_v5 (ix2 (0 : Fin 1) (keyOf t k))
  obtain ⟨-, -, e0, e1, -⟩ := idx_facts t
  refine congrArg _ (funext fun a => Fin.ext ?_)
  match a with
  | ⟨0, _⟩ => show win0_1.index t (0 : Fin 2) * 1 + 1 * 0 = 0; omega
  | ⟨1, _⟩ => show win0_1.index t (1 : Fin 2) * 1024 + 1 * k.val = t.val % 8 * 1024 + k.val; omega

theorem xb2_apply (c : Dev nD) (t : Fin cfg0.N) (r k : Fin 1024) :
    xb2 m c t (ix2 r k) = adjarr m c (ix2 (rowOf t r) (keyOf t k)) := by
  show V m c main_arg1 (((cfg0.win 2).blk t).view.emb (ix2 r k)) = V m c main_arg1 (ix2 (rowOf t r) (keyOf t k))
  obtain ⟨-, -, -, -, e0, e1, -⟩ := idx_facts t
  refine congrArg _ (funext fun a => Fin.ext ?_)
  match a with
  | ⟨0, _⟩ => show win0_2.index t (0 : Fin 2) * 1024 + 1 * r.val = t.val / 8 * 1024 + r.val; omega
  | ⟨1, _⟩ => show win0_2.index t (1 : Fin 2) * 1024 + 1 * k.val = t.val % 8 * 1024 + k.val; omega

/-- The feature rows the point reads: rows `(t % 8)·1024 …` of the whole table (the window's one block is the table). -/
theorem hrows_apply (c : Dev nD) (t : Fin cfg0.N) (k : Fin 1024) (f : Fin 65) :
    KerPieces.hrows (F := Ideal) (grid0.coords t) (xb3 m c t) (ix2 k f) = haarr m c (ix2 (keyOf t k) f) := by
  obtain ⟨-, -, -, -, -, -, e0, e1, -, -, o0, o1⟩ := idx_facts t
  show V m c main_v8 (((cfg0.win 3).blk t).view.emb
      ((Rect.unit (s := S8192x65) (k0_off1 (grid0.coords t)) S1024x65.size (k0_off1_inb (grid0.coords t))).emb (ix2 k f)))
    = V m c main_v8 (ix2 (keyOf t k) f)
  refine congrArg _ (funext fun a => Fin.ext ?_)
  match a with
  | ⟨0, _⟩ =>
    show win0_3.index t (0 : Fin 2) * 8192 + 1 * (k0_off1 (grid0.coords t) (0 : Fin 2) + 1 * k.val) = t.val % 8 * 1024 + k.val
    omega
  | ⟨1, _⟩ =>
    show win0_3.index t (1 : Fin 2) * 65 + 1 * (k0_off1 (grid0.coords t) (1 : Fin 2) + 1 * f.val) = f.val
    omega

end Cert.KernelIdeal.KerBlocks

end
-- ==== Proof.Spec.lean ====
/-
  The mathematics both programs compute, stated once over plain index functions on the extended reals.

  A graph-attention layer over N = 8192 nodes with F = 64 features. From the projected features
  `h j f`, the two score vectors `s1 i`, `s2 j` and the adjacency mask `msk i j`:
    z i j   = leakyrelu (s1 i + s2 j) where the mask is set, the finite stand-in for -∞ elsewhere;
    M i     = max_j z i j;           p i j = exp (z i j - M i);
    out i f = elu ( Σ_j softmax_j(z i ·) · h j f ).
  The reference normalises each weight first (`p / Σ p`) and then contracts with `h`; the kernel
  walks the keys in eight blocks of 1024, keeps a running maximum and rescales what it has
  accumulated (`accRun`), accumulates the normaliser in an extra all-ones feature column, and
  divides once at the end.
-/
import Idealize.ShloMosaic.PureOps.Ideal
import Idealize.ShloMosaic.Lib.ValueIdx

noncomputable section

namespace Gat

open Idealize.ShloMosaic

/-- The leaky-relu slope: the binary32 value nearest 0.2. -/
def slope : EReal := Ideal.ofBits .f32 0x3E4CCCCD#32
/-- The mask's fill value: the binary32 value nearest -1e12. -/
def negBig : EReal := Ideal.ofBits .f32 0xD368D4A5#32

/-- Leaky relu written with a comparison: `e` where `0 ≤ e`, else `slope · e`. -/
def lrelu (e : EReal) : EReal := if (0 : EReal) ≤ e then e else slope * e
/-- Leaky relu written with a maximum: `max e (slope · e)`. -/
def lreluMax (e : EReal) : EReal := max e (slope * e)

/-- The masked logits, leaky relu by comparison. -/
def logit (s1 s2 : Fin 8192 → EReal) (msk : Fin 8192 → Fin 8192 → BitVec 1) (i j : Fin 8192) : EReal :=
  if msk i j = 1#1 then lrelu (s1 i + s2 j) else negBig
/-- The masked logits, leaky relu by maximum. -/
def logitMax (s1 s2 : Fin 8192 → EReal) (msk : Fin 8192 → Fin 8192 → BitVec 1) (i j : Fin 8192) : EReal :=
  if msk i j = 1#1 then lreluMax (s1 i + s2 j) else negBig

/-- A row's maximum, as a fold of `max` from `-∞`. -/
def rowMax (z : Fin 8192 → EReal) : EReal := (Finset.univ : Finset (Fin 8192)).fold max ⊥ z

/-- The unnormalised softmax weight of key `j` in a row of logits. -/
def pexp (z : Fin 8192 → EReal) (j : Fin 8192) : EReal := Ideal.exp (z j - rowMax z)

/-- `elu`: the identity on the positives, `exp - 1` elsewhere. -/
def elu (y : EReal) : EReal := if (0 : EReal) < y then y else Ideal.exp y - 1

/-- THE REFERENCE's value at (i, f): each weight normalised, then contracted with the features. -/
def refOut (h : Fin 8192 → Fin 64 → EReal) (z : Fin 8192 → Fin 8192 → EReal) (i : Fin 8192) (f : Fin 64) : EReal :=
  elu (∑ j : Fin 8192, Ideal.div (pexp (z i) j) (0 + ∑ j' : Fin 8192, pexp (z i) j') * h j f)

/-- Key `k` of block `b` (of eight blocks of 1024 keys). -/
def col (b : ℕ) (k : Fin 1024) : Fin 8192 := ⟨(b * 1024 + k.val) % 8192, Nat.mod_lt _ (by norm_num)⟩

/-- The maximum of a row's logits over block `b`. -/
def blkMax (z : Fin 8192 → EReal) (b : ℕ) : EReal :=
  (Finset.univ : Finset (Fin 1024)).fold max ⊥ (fun k => z (col b k))

/-- The running maximum after blocks `0 … b`, started from `-∞`. -/
def mRun (z : Fin 8192 → EReal) : ℕ → EReal
  | 0 => max ⊥ (blkMax z 0)
  | b + 1 => max (mRun z b) (blkMax z (b + 1))

/-- The running accumulator of one feature column `v` after blocks `0 … b`: what was accumulated is
    rescaled by `exp (old max - new max)` (from `-∞` and `0` at the first block), and the block's
    weighted sum at the new maximum is added. -/
def accRun (z : Fin 8192 → EReal) (v : Fin 8192 → EReal) : ℕ → EReal
  | 0 => Ideal.exp (⊥ - mRun z 0) * 0 + ∑ k : Fin 1024, Ideal.exp (z (col 0 k) - mRun z 0) * v (col 0 k)
  | b + 1 => Ideal.exp (mRun z b - mRun z (b + 1)) * accRun z v b
      + ∑ k : Fin 1024, Ideal.exp (z (col (b + 1) k) - mRun z (b + 1)) * v (col (b + 1) k)

/-- THE KERNEL's value at (i, f): the feature column's accumulator over the all-ones column's, both after the
    eighth block, then `elu`. -/
def kerOut (haug : Fin 8192 → Fin 65 → EReal) (z : Fin 8192 → Fin 8192 → EReal) (i : Fin 8192) (f : Fin 64) : EReal :=
  elu (Ideal.div (accRun (z i) (fun j => haug j f.castSucc) 7) (accRun (z i) (fun j => haug j (Fin.last 64)) 7))

/-! ## The shared prefix: both programs project the features and the two score vectors the same way -/

open Idealize.ShloMosaic.ValueIdx

/-- The projected features `h = x · W`, entry by entry. -/
def hOf (x : (⟨2, ![8192, 256]⟩ : Shape).Idx → EReal) (W : (⟨2, ![256, 64]⟩ : Shape).Idx → EReal)
    (j : Fin 8192) (f : Fin 64) : EReal := ∑ k : Fin 256, x (ix2 j k) * W (ix2 k f)

/-- The first half of the attention vector `a`. -/
def a1Of (a : (⟨2, ![128, 1]⟩ : Shape).Idx → EReal) (f : Fin 64) : EReal := a (ix2 (Fin.castAdd 64 f) (0 : Fin 1))
/-- The second half of the attention vector `a`. -/
def a2Of (a : (⟨2, ![128, 1]⟩ : Shape).Idx → EReal) (f : Fin 64) : EReal := a (ix2 (Fin.natAdd 64 f) (0 : Fin 1))

/-- The query-side score `s1 = h · a[:64]`. -/
def s1Of (x : (⟨2, ![8192, 256]⟩ : Shape).Idx → EReal) (W : (⟨2, ![256, 64]⟩ : Shape).Idx → EReal)
    (a : (⟨2, ![128, 1]⟩ : Shape).Idx → EReal) (i : Fin 8192) : EReal := ∑ f : Fin 64, hOf x W i f * a1Of a f
/-- The key-side score `s2 = h · a[64:]`. -/
def s2Of (x : (⟨2, ![8192, 256]⟩ : Shape).Idx → EReal) (W : (⟨2, ![256, 64]⟩ : Shape).Idx → EReal)
    (a : (⟨2, ![128, 1]⟩ : Shape).Idx → EReal) (i : Fin 8192) : EReal := ∑ f : Fin 64, hOf x W i f * a2Of a f

/-- The adjacency mask: `adj > 0`, signed. -/
def mskOf (adj : (⟨2, ![8192, 8192]⟩ : Shape).Idx → BitVec 32) (i j : Fin 8192) : BitVec 1 :=
  IntOp.cmpi .sgt (adj (ix2 i j)) 0#32

/-- The features with the all-ones column appended. -/
def haugOf (x : (⟨2, ![8192, 256]⟩ : Shape).Idx → EReal) (W : (⟨2, ![256, 64]⟩ : Shape).Idx → EReal)
    (j : Fin 8192) (f : Fin 65) : EReal := if hf : f.val < 64 then hOf x W j ⟨f.val, hf⟩ else 1

/-- The reference's result as one function of the four argument arrays. -/
def refFn (x : (⟨2, ![8192, 256]⟩ : Shape).Idx → EReal) (adj : (⟨2, ![8192, 8192]⟩ : Shape).Idx → BitVec 32)
    (W : (⟨2, ![256, 64]⟩ : Shape).Idx → EReal) (a : (⟨2, ![128, 1]⟩ : Shape).Idx → EReal) :
    (⟨2, ![8192, 64]⟩ : Shape).Idx → EReal :=
  fun y => refOut (hOf x W) (logit (s1Of x W a) (s2Of x W a) (mskOf adj)) (y 0) (y 1)

/-- The kernel's result as one function of the four argument arrays. -/
def kerFn (x : (⟨2, ![8192, 256]⟩ : Shape).Idx → EReal) (adj : (⟨2, ![8192, 8192]⟩ : Shape).Idx → BitVec 32)
    (W : (⟨2, ![256, 64]⟩ : Shape).Idx → EReal) (a : (⟨2, ![128, 1]⟩ : Shape).Idx → EReal) :
    (⟨2, ![8192, 64]⟩ : Shape).Idx → EReal :=
  fun y => kerOut (haugOf x W) (logitMax (s1Of x W a) (s2Of x W a) (mskOf adj)) (y 0) (y 1)

end Gat

end
-- ==== Proof.Consts.lean ====
/-
  The float constants the two programs spell, as the extended reals their bit patterns denote.
-/
import Idealize.ShloMosaic.PureOps.Ideal

noncomputable section

namespace Gat.Consts

open Idealize.ShloMosaic

/-- The binary32 pattern of `-∞`. -/
theorem ofBits_neg_inf : Ideal.ofBits .f32 0xFF800000#32 = (⊥ : EReal) := by
  simp [Ideal.ofBits, Ideal.ieee]

/-- The binary32 pattern of `+0.0`. -/
theorem ofBits_zero : Ideal.ofBits .f32 0x00000000#32 = 0 := by
  simp [Ideal.ofBits, Ideal.ieee]

/-- The binary32 pattern of `1.0`. -/
theorem ofBits_one : Ideal.ofBits .f32 0x3F800000#32 = 1 := by
  simp [Ideal.ofBits, Ideal.ieee, -EReal.coe_mul]; norm_num

/-- The bfloat16 pattern of `1.0`. -/
theorem ofBits_one_bf16 : Ideal.ofBits .bf16 0x3F80#16 = 1 := by
  simp [Ideal.ofBits, Ideal.ieee, -EReal.coe_mul]; norm_num

end Gat.Consts

end
-- ==== Proof.LibColumn.lean ====
/-
  A column kept by a row reduction, read at an index: an `[a]` vector viewed as the column `[a, 1]`, and a column
  `[a, 1]` spread over `b` columns. (What `keepdims` leaves of a row maximum or a row sum before it meets the rows again.)
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.KerPay.lean ====
/-
  The body's arithmetic read entry by entry on the extended reals: the masked logits of a block of 1024 queries by
  1024 keys, the new running row maximum, the rescaled accumulator plus the block's weighted features, and the
  final quotient and `elu`.
-/
import proofs.«430184_j75746043232803_3_alg».proof.Proof.Gen.KernelIdeal.Skeleton
import proofs.«430184_j75746043232803_3_alg».proof.Proof.Spec
import proofs.«430184_j75746043232803_3_alg».proof.Proof.Consts
import proofs.«430184_j75746043232803_3_alg».proof.Proof.LibColumn
import proofs.«430184_j75746043232803_3_alg».proof.Proof.LibMatProd
import Idealize.ShloMosaic.PureOps.Ideal.Laws
import Idealize.ShloMosaic.Lib.Pipeline.Value
import Idealize.ShloMosaic.Lib.ValueIdx

noncomputable section

namespace Cert.KernelIdeal.KerPay

open Cert.KernelIdeal Cert.KernelIdeal.Gen Idealize.ShloMosaic Idealize.ShloMosaic.ValueIdx

/-- A row `[1, b]` spread over `a` rows reads, at `(i, j)`, the row's entry `j`. -/
theorem broadcastTo_1b_ab_apply {α : Type} {a b : ℕ} (v : (⟨2, ![1, b]⟩ : Shape).Idx → α) (h : (⟨2, ![1, b]⟩ : Shape).Broadcasts ⟨2, ![a, b]⟩)
    (i : Fin a) (j : Fin b) : broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The masked logit of query `r` and key `k` of the block: leaky relu (by maximum) of the two scores' sum where the
    adjacency entry is positive, the fill value elsewhere. -/
theorem pay6_apply (x0 : Vec Ideal S1024x1 .f32) (x1 : Vec Ideal S1x1024 .f32) (x2 : Vec Ideal S1024x1024 .i32) (r k : Fin 1024) :
    k0_pay6 (F := Ideal) x0 x1 x2 (ix2 r k)
      = if IntOp.cmpi .sgt (x2 (ix2 r k)) 0#32 = 1#1 then Gat.lreluMax (x0 (ix2 r (0 : Fin 1)) + x1 (ix2 (0 : Fin 1) k)) else Gat.negBig := by
  unfold k0_pay6
  simp only [shapeCast_self]
  rw [select_apply]
  show Scalar.select (IntOp.cmpi .sgt (x2 (ix2 r k)) 0#32) _ _ = _
  have e1 : broadcastTo S1024x1024 x0 broadcasts_S1024x1_S1024x1024 (ix2 r k) = x0 (ix2 r (0 : Fin 1)) :=
    Cert.LibColumn.broadcastTo_a1_ab_apply x0 _ r k
  have e2 : broadcastTo S1024x1024 x1 broadcasts_S1x1024_S1024x1024 (ix2 r k) = x1 (ix2 (0 : Fin 1) k) :=
    broadcastTo_1b_ab_apply x1 _ r k
  rw [maximumf_apply, mulf_apply, addf_apply, e1, e2]
  rfl

/-- A row of a 1024 × 1024 block reduced with `max` from `-∞`: the fold over its 1024 entries. -/
theorem rowmax_apply (src : FVec Ideal S1024x1024 .f32) (hφ : FKind.Formats .f32)
    (hacc : (0xFF800000#32 : BitVec 32) = 0xFF800000#32) (r : Fin 1024) :
    multiReduction .maximumf [1] S1024 src 0xFF800000#32 reduces_S1024x1024_S1024 hφ hacc (ix1 r)
      = (Finset.univ : Finset (Fin 1024)).fold max ⊥ (fun k => src (ix2 r k)) := by
  refine (Ideal.multiReduction_maximumf_single src 0xFF800000#32 reduces_S1024x1024_S1024 hφ hacc (ix1 r)).trans ?_
  rw [Ideal.ofBits_def, Gat.Consts.ofBits_neg_inf]
  exact congrArg (fun g => (Finset.univ : Finset (Fin 1024)).fold max ⊥ g) (funext fun k => congrArg src (funext fun a => Fin.ext (by
    match a with
    | ⟨0, _⟩ => rfl
    | ⟨1, _⟩ => rfl)))

/-- The new running maximum of query `r`: the old one against the block's row maximum. -/
theorem pay7_apply (x0 : Vec Ideal S1024x1 .f32) (x1 : Vec Ideal S1x1024 .f32) (x2 : Vec Ideal S1024x1024 .i32)
    (mp : Vec Ideal S1024x1 .f32) (r : Fin 1024) :
    k0_pay7 (F := Ideal) x0 x1 x2 mp (ix2 r (0 : Fin 1))
      = max (mp (ix2 r (0 : Fin 1))) ((Finset.univ : Finset (Fin 1024)).fold max ⊥ (fun k => k0_pay6 (F := Ideal) x0 x1 x2 (ix2 r k))) := by
  unfold k0_pay7
  rw [maximumf_apply, Cert.LibColumn.shapeCast_a_a1_apply _ _ r (0 : Fin 1)]
  exact congrArg (max _) (rowmax_apply _ _ _ r)

/-- The vector `exp` entry by entry. -/
theorem exp_apply {s : Shape} (v : FVec Ideal s .f32) (i : s.Idx) : exp v i = Ideal.exp (v i) := rfl

/-- The accumulator after the block, entry `(r, f)`: the old entry rescaled by `exp (old max - new max)` plus the
    block's keys' weights `exp (logit - new max)` against column `f` of the block's feature rows. -/
theorem pay8_apply (x0 : Vec Ideal S1024x1 .f32) (x1 : Vec Ideal S1x1024 .f32) (x2 : Vec Ideal S1024x1024 .i32)
    (mp : Vec Ideal S1024x1 .f32) (hb : Vec Ideal S1024x65 .bf16) (ap : Vec Ideal S1024x65 .f32) (r : Fin 1024) (f : Fin 65) :
    k0_pay8 (F := Ideal) x0 x1 x2 mp hb ap (ix2 r f)
      = Ideal.exp (mp (ix2 r (0 : Fin 1)) - k0_pay7 (F := Ideal) x0 x1 x2 mp (ix2 r (0 : Fin 1))) * ap (ix2 r f)
        + ∑ k : Fin 1024, Ideal.exp (k0_pay6 (F := Ideal) x0 x1 x2 (ix2 r k) - k0_pay7 (F := Ideal) x0 x1 x2 mp (ix2 r (0 : Fin 1))) * hb (ix2 k f) := by
  unfold k0_pay8
  simp only [shapeCast_self]
  rw [addf_apply, mulf_apply, Cert.LibColumn.broadcastTo_a1_ab_apply _ _ r f, exp_apply, subf_apply]
  refine congrArg (_ + ·) ((Cert.LibMatProd.matmul_zero_apply (φ₁ := .bf16) (φ₂ := .bf16) dot_S1024x1024_S1024x65_S1024x65_1_0_0_1_n_n rfl none _ hb r f).trans
    (Finset.sum_congr rfl fun k _ => ?_))
  rw [truncf_apply, exp_apply, subf_apply, Cert.LibColumn.broadcastTo_a1_ab_apply _ _ r k]

/-- The output entry `(r, f)`: feature column `f` of the accumulator over its all-ones column, then `elu`. -/
theorem pay3_apply (acc : Vec Ideal S1024x65 .f32) (r : Fin 1024) (f : Fin 64) :
    k0_pay3 (F := Ideal) acc (ix2 r f) = Gat.elu (Ideal.div (acc (ix2 r f.castSucc)) (acc (ix2 r (Fin.last 64)))) := by
  unfold k0_pay3
  have e1 : extractStridedSlice S1024x64 ![0, 0] acc slices_S1024x65_o0_0_S1024x64 (ix2 r f) = acc (ix2 r f.castSucc) :=
    extractStridedSlice_apply _ acc _ (ix2 r f) (ix2 r f.castSucc) fun a => by
      match a with
      | ⟨0, _⟩ => exact (Nat.zero_add _).symm
      | ⟨1, _⟩ => exact (Nat.zero_add _).symm
  have e2 : extractStridedSlice S1024x1 ![0, 64] acc slices_S1024x65_o0_64_S1024x1 (ix2 r (0 : Fin 1)) = acc (ix2 r (Fin.last 64)) :=
    extractStridedSlice_apply _ acc _ (ix2 r (0 : Fin 1)) (ix2 r (Fin.last 64)) fun a => by
      match a with
      | ⟨0, _⟩ => exact (Nat.zero_add _).symm
      | ⟨1, _⟩ => rfl
  rw [select_apply, cmpf_apply, Ideal.cmpf_def, subf_apply, exp_apply, divf_apply, e1,
    Cert.LibColumn.broadcastTo_a1_ab_apply _ _ r f, e2]
  simp only [broadcast_apply]
  show Scalar.select (Ideal.cmp .ogt _ (Ideal.ofBits .f32 0x00000000#32)) _ (_ - Ideal.ofBits .f32 0x3F800000#32) = _
  rw [Gat.Consts.ofBits_zero, Gat.Consts.ofBits_one]
  generalize Ideal.div _ _ = y
  show Scalar.select (BitVec.ofBool (decide ((0 : EReal) < y))) y (Ideal.exp y - 1) = _
  unfold Gat.elu
  by_cases h : (0 : EReal) < y
  · rw [if_pos h, decide_eq_true h]; exact select_one _ _
  · rw [if_neg h, decide_eq_false h]; exact select_zero _ _

end Cert.KernelIdeal.KerPay

end
-- ==== Proof.KerPoint.lean ====
/-
  One grid point in the specification's words. With the region's arrays read as index functions — the two score
  vectors, the adjacency mask, the augmented features — row `r` of point `t`'s blocks is query `(t/8)·1024 + r`
  and its keys are block `t % 8` of that query's logits: the point's new running maximum is the old one against
  that block's maximum, and its accumulator the old one rescaled plus the block's weighted features.
-/
import proofs.«430184_j75746043232803_3_alg».proof.Proof.KerBlocks
import proofs.«430184_j75746043232803_3_alg».proof.Proof.KerPay

noncomputable section

namespace Cert.KernelIdeal.KerPoint

open Cert.KernelIdeal Cert.KernelIdeal.Gen Idealize.ShloMosaic Idealize.ShloMosaic.TcCoe Idealize.SL.Sem Idealize.ShloMosaic.ValueIdx
open Cert.KernelIdeal.KerBlocks Cert.KernelIdeal.KerPay

variable (m : (ℓ : Loc nD τ sig) → Buf (Elt Ideal) ℓ)

/-- The region's arrays as index functions. -/
def s1f (c : Dev nD) (R : Fin 8192) : EReal := s1arr m c (ix2 R (0 : Fin 1))
def s2f (c : Dev nD) (j : Fin 8192) : EReal := s2arr m c (ix2 (0 : Fin 1) j)
def mskf (c : Dev nD) (R j : Fin 8192) : BitVec 1 := IntOp.cmpi .sgt (adjarr m c (ix2 R j)) 0#32
def haf (c : Dev nD) (j : Fin 8192) (f : Fin 65) : EReal := haarr m c (ix2 j f)
/-- The masked logits the kernel forms (leaky relu by maximum). -/
def zK (c : Dev nD) : Fin 8192 → Fin 8192 → EReal := Gat.logitMax (s1f m c) (s2f m c) (mskf m c)

theorem keyOf_eq_col (t : Fin cfg0.N) (k : Fin 1024) : keyOf t k = Gat.col (t.val % 8) k :=
  Fin.ext (by
    show t.val % 8 * 1024 + k.val = (t.val % 8 * 1024 + k.val) % 8192
    have := k.isLt
    omega)

/-- Entry `(r, k)` of the point's masked logit block is the logit of query `rowOf t r` and key `col (t % 8) k`. -/
theorem pay6_point (c : Dev nD) (t : Fin cfg0.N) (r k : Fin 1024) :
    k0_pay6 (F := Ideal) (xb0 m c t) (xb1 m c t) (xb2 m c t) (ix2 r k) = zK m c (rowOf t r) (Gat.col (t.val % 8) k) := by
  refine (pay6_apply (xb0 m c t) (xb1 m c t) (xb2 m c t) r k).trans ?_
  rw [xb0_apply, xb1_apply, xb2_apply, keyOf_eq_col]
  rfl

/-- The block's row maximum is the specification's block maximum. -/
theorem blkMax_point (c : Dev nD) (t : Fin cfg0.N) (r : Fin 1024) :
    (Finset.univ : Finset (Fin 1024)).fold max ⊥ (fun k => k0_pay6 (F := Ideal) (xb0 m c t) (xb1 m c t) (xb2 m c t) (ix2 r k))
      = Gat.blkMax (zK m c (rowOf t r)) (t.val % 8) := by
  unfold Gat.blkMax
  exact congrArg (fun g => (Finset.univ : Finset (Fin 1024)).fold max ⊥ g) (funext fun k => pay6_point m c t r k)

/-- The point's new running maximum, over any old one. -/
theorem mnew_point (c : Dev nD) (t : Fin cfg0.N) (mp : Vec Ideal S1024x1 .f32) (r : Fin 1024) :
    k0_pay7 (F := Ideal) (xb0 m c t) (xb1 m c t) (xb2 m c t) mp (ix2 r (0 : Fin 1))
      = max (mp (ix2 r (0 : Fin 1))) (Gat.blkMax (zK m c (rowOf t r)) (t.val % 8)) := by
  refine (pay7_apply (xb0 m c t) (xb1 m c t) (xb2 m c t) mp r).trans ?_
  rw [blkMax_point]

/-- The point's accumulator, over any old maximum and old accumulator. -/
theorem accnew_point (c : Dev nD) (t : Fin cfg0.N) (mp : Vec Ideal S1024x1 .f32) (ap : Vec Ideal S1024x65 .f32) (r : Fin 1024) (f : Fin 65) :
    k0_pay8 (F := Ideal) (xb0 m c t) (xb1 m c t) (xb2 m c t) mp (KerPieces.hrows (F := Ideal) (grid0.coords t) (xb3 m c t)) ap (ix2 r f)
      = Ideal.exp (mp (ix2 r (0 : Fin 1)) - max (mp (ix2 r (0 : Fin 1))) (Gat.blkMax (zK m c (rowOf t r)) (t.val % 8))) * ap (ix2 r f)
        + ∑ k : Fin 1024, Ideal.exp (zK m c (rowOf t r) (Gat.col (t.val % 8) k)
            - max (mp (ix2 r (0 : Fin 1))) (Gat.blkMax (zK m c (rowOf t r)) (t.val % 8))) * haf m c (Gat.col (t.val % 8) k) f := by
  refine (pay8_apply (xb0 m c t) (xb1 m c t) (xb2 m c t) mp (KerPieces.hrows (F := Ideal) (grid0.coords t) (xb3 m c t)) ap r f).trans ?_
  rw [mnew_point]
  refine congrArg (_ + ·) (Finset.sum_congr rfl fun k _ => ?_)
  rw [pay6_point, hrows_apply, keyOf_eq_col]
  rfl

/-- The reset values: `-∞` for the running maximum, `0` for the accumulator. -/
theorem pay4_apply (j : S1024x1.Idx) : k0_pay4 (F := Ideal) j = ⊥ := by
  unfold k0_pay4
  simp only [shapeCast_self]
  show Ideal.ofBits .f32 0xFF800000#32 = ⊥
  exact Gat.Consts.ofBits_neg_inf

theorem pay5_apply (j : S1024x65.Idx) : k0_pay5 (F := Ideal) j = 0 := by
  unfold k0_pay5
  simp only [shapeCast_self]
  show Ideal.ofBits .f32 0x00000000#32 = 0
  exact Gat.Consts.ofBits_zero

end Cert.KernelIdeal.KerPoint

end
-- ==== Proof.KerInduct.lean ====
/-
  The carried scratch after every grid point, by induction over the points of a query block: after key block `b`
  the first scratch holds the running maximum `mRun` of each query's logits over blocks `0 … b` and the second the
  accumulator `accRun` of every augmented feature column; at the last key block the output block is the quotient
  of a feature column's accumulator by the all-ones column's, through `elu`.
-/
import proofs.«430184_j75746043232803_3_alg».proof.Proof.KerPoint

noncomputable section

namespace Cert.KernelIdeal.KerInduct

open Cert.KernelIdeal Cert.KernelIdeal.Gen Idealize.ShloMosaic Idealize.ShloMosaic.TcCoe Idealize.SL.Sem Idealize.ShloMosaic.ValueIdx
open Cert.KernelIdeal.KerBlocks Cert.KernelIdeal.KerPay Cert.KernelIdeal.KerPoint

variable (m : (ℓ : Loc nD τ sig) → Buf (Elt Ideal) ℓ)

/-- What the run's contents hold after point `n`, at their literal types: the running maximum, the accumulator, the output block. -/
abbrev mAt (c : Dev nD) (n : ℕ) (hn : n < cfg0.N) : Vec Ideal S1024x1 .f32 := (outsAt0 m c n hn).2.1
abbrev accAt (c : Dev nD) (n : ℕ) (hn : n < cfg0.N) : Vec Ideal S1024x65 .f32 := (outsAt0 m c n hn).2.2
abbrev outAt (c : Dev nD) (n : ℕ) (hn : n < cfg0.N) : Vec Ideal S1024x64 .f32 := (outsAt0 m c n hn).1

/-! ## Each kind of point, as the body's arithmetic of its blocks -/

theorem mAt_A (c : Dev nD) (t : Fin cfg0.N) (h0 : t.val % 8 = 0) (h1 : ¬t.val % 8 = 7) :
    mAt m c t.val t.isLt = k0_pay7 (F := Ideal) (xb0 m c t) (xb1 m c t) (xb2 m c t) (k0_pay4 (F := Ideal)) := by
  show (outsAt0 m c t.val t.isLt).2.1 = _
  rw [outsAt0_A m c t h0 h1]
  dsimp only
  exact KerPieces.sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

theorem accAt_A (c : Dev nD) (t : Fin cfg0.N) (h0 : t.val % 8 = 0) (h1 : ¬t.val % 8 = 7) :
    accAt m c t.val t.isLt = k0_pay8 (F := Ideal) (xb0 m c t) (xb1 m c t) (xb2 m c t) (k0_pay4 (F := Ideal))
      (KerPieces.hrows (F := Ideal) (grid0.coords t) (xb3 m c t)) (k0_pay5 (F := Ideal)) := by
  show (outsAt0 m c t.val t.isLt).2.2 = _
  rw [outsAt0_A m c t h0 h1]
  dsimp only
  exact KerPieces.sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

theorem mAt_B (c : Dev nD) (t : Fin cfg0.N) (h0 : ¬t.val % 8 = 0) (h1 : ¬t.val % 8 = 7) :
    mAt m c t.val t.isLt = k0_pay7 (F := Ideal) (xb0 m c t) (xb1 m c t) (xb2 m c t) (mAt m c (t.val - 1) (Nat.lt_of_le_of_lt (Nat.sub_le _ _) t.isLt)) := by
  show (outsAt0 m c t.val t.isLt).2.1 = _
  rw [outsAt0_B m c t h0 h1]
  dsimp only
  exact KerPieces.sB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t)
    (outsAt0 m c (t.val - 1) (Nat.lt_of_le_of_lt (Nat.sub_le _ _) t.isLt)).2.1 (outsAt0 m c (t.val - 1) (Nat.lt_of_le_of_lt (Nat.sub_le _ _) t.isLt)).2.2

theorem accAt_B (c : Dev nD) (t : Fin cfg0.N) (h0 : ¬t.val % 8 = 0) (h1 : ¬t.val % 8 = 7) :
    accAt m c t.val t.isLt = k0_pay8 (F := Ideal) (xb0 m c t) (xb1 m c t) (xb2 m c t) (mAt m c (t.val - 1) (Nat.lt_of_le_of_lt (Nat.sub_le _ _) t.isLt))
      (KerPieces.hrows (F := Ideal) (grid0.coords t) (xb3 m c t)) (accAt m c (t.val - 1) (Nat.lt_of_le_of_lt (Nat.sub_le _ _) t.isLt)) := by
  show (outsAt0 m c t.val t.isLt).2.2 = _
  rw [outsAt0_B m c t h0 h1]
  dsimp only
  exact KerPieces.sB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t)
    (outsAt0 m c (t.val - 1) (Nat.lt_of_le_of_lt (Nat.sub_le _ _) t.isLt)).2.1 (outsAt0 m c (t.val - 1) (Nat.lt_of_le_of_lt (Nat.sub_le _ _) t.isLt)).2.2

theorem mAt_C (c : Dev nD) (t : Fin cfg0.N) (h0 : ¬t.val % 8 = 0) (h1 : t.val % 8 = 7) :
    mAt m c t.val t.isLt = k0_pay7 (F := Ideal) (xb0 m c t) (xb1 m c t) (xb2 m c t) (mAt m c (t.val - 1) (Nat.lt_of_le_of_lt (Nat.sub_le _ _) t.isLt)) := by
  show (outsAt0 m c t.val t.isLt).2.1 = _
  rw [outsAt0_C m c t h0 h1]
  dsimp only
  exact KerPieces.sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2.1 (outsAt0 m c (t.val - 1) (Nat.lt_of_le_of_lt (Nat.sub_le _ _) t.isLt)).2.2

theorem accAt_C (c : Dev nD) (t : Fin cfg0.N) (h0 : ¬t.val % 8 = 0) (h1 : t.val % 8 = 7) :
    accAt m c t.val t.isLt = k0_pay8 (F := Ideal) (xb0 m c t) (xb1 m c t) (xb2 m c t) (mAt m c (t.val - 1) (Nat.lt_of_le_of_lt (Nat.sub_le _ _) t.isLt))
      (KerPieces.hrows (F := Ideal) (grid0.coords t) (xb3 m c t)) (accAt m c (t.val - 1) (Nat.lt_of_le_of_lt (Nat.sub_le _ _) t.isLt)) := by
  show (outsAt0 m c t.val t.isLt).2.2 = _
  rw [outsAt0_C m c t h0 h1]
  dsimp only
  exact KerPieces.sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2.1 (outsAt0 m c (t.val - 1) (Nat.lt_of_le_of_lt (Nat.sub_le _ _) t.isLt)).2.2

/-- At the last key block the output block is the final arithmetic of the accumulator the same point leaves. -/
theorem outAt_C (c : Dev nD) (t : Fin cfg0.N) (h0 : ¬t.val % 8 = 0) (h1 : t.val % 8 = 7) :
    outAt m c t.val t.isLt = k0_pay3 (F := Ideal) (accAt m c t.val t.isLt) := by
  rw [accAt_C m c t h0 h1]
  show (outsAt0 m c t.val t.isLt).1 = _
  rw [outsAt0_C m c t h0 h1]
  dsimp only
  exact KerPieces.oC4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.KerInduct

end
-- ==== Proof.KerRun.lean ====
/-
  The whole grid: the invariant of the carried scratch over the key blocks of a query block, the output block the
  last key block writes back, and the result array after the run — every entry `(R, f)` is the specification's
  `kerOut` of the region's arrays.
-/
import proofs.«430184_j75746043232803_3_alg».proof.Proof.KerInduct

noncomputable section

namespace Cert.KernelIdeal.KerRun

open Cert.KernelIdeal Cert.KernelIdeal.Gen Idealize.ShloMosaic Idealize.ShloMosaic.TcCoe Idealize.SL.Sem Idealize.ShloMosaic.ValueIdx
open Cert.KernelIdeal.KerBlocks Cert.KernelIdeal.KerPay Cert.KernelIdeal.KerPoint Cert.KernelIdeal.KerInduct
open Idealize.ShloMosaic.Pipeline (Dat)

variable (m : (ℓ : Loc nD τ sig) → Buf (Elt Ideal) ℓ)

/-- After point `n` (key block `n % 8` of query block `n / 8`) the scratch holds the running maximum and the
    accumulators of blocks `0 … n % 8`, for each of the block's 1024 queries. -/
def Inv (c : Dev nD) (n : ℕ) (hn : n < cfg0.N) : Prop :=
  (∀ r : Fin 1024, mAt m c n hn (ix2 r (0 : Fin 1)) = Gat.mRun (zK m c (rowOf ⟨n, hn⟩ r)) (n % 8))
  ∧ (∀ (r : Fin 1024) (f : Fin 65), accAt m c n hn (ix2 r f) = Gat.accRun (zK m c (rowOf ⟨n, hn⟩ r)) (fun j => haf m c j f) (n % 8))

/-- A first key block resets: the invariant starts from `-∞` and `0`. -/
theorem inv_first (c : Dev nD) (t : Fin cfg0.N) (h0 : t.val % 8 = 0) : Inv m c t.val t.isLt := by
  have h1 : ¬t.val % 8 = 7 := by omega
  constructor
  · intro r
    refine (congrFun (mAt_A m c t h0 h1) (ix2 r (0 : Fin 1))).trans ?_
    refine (mnew_point m c t (k0_pay4 (F := Ideal)) r).trans ?_
    rw [pay4_apply, h0]
    rfl
  · intro r f
    refine (congrFun (accAt_A m c t h0 h1) (ix2 r f)).trans ?_
    refine (accnew_point m c t (k0_pay4 (F := Ideal)) (k0_pay5 (F := Ideal)) r f).trans ?_
    rw [pay4_apply, pay5_apply, h0]
    rfl

/-- A later key block of the same query block extends it. -/
theorem inv_next (c : Dev nD) (t : Fin cfg0.N) (h0 : ¬t.val % 8 = 0)
    (ih : Inv m c (t.val - 1) (Nat.lt_of_le_of_lt (Nat.sub_le _ _) t.isLt)) : Inv m c t.val t.isLt := by
  have e : t.val % 8 = (t.val - 1) % 8 + 1 := by omega
  have hrow : ∀ r : Fin 1024, rowOf ⟨t.val - 1, Nat.lt_of_le_of_lt (Nat.sub_le _ _) t.isLt⟩ r = rowOf t r := fun r =>
    Fin.ext (by
      show (t.val - 1) / 8 * 1024 + r.val = t.val / 8 * 1024 + r.val
      have : (t.val - 1) / 8 = t.val / 8 := by omega
      rw [this])
  have hm : ∀ r : Fin 1024, mAt m c t.val t.isLt (ix2 r (0 : Fin 1))
      = max (mAt m c (t.val - 1) (Nat.lt_of_le_of_lt (Nat.sub_le _ _) t.isLt) (ix2 r (0 : Fin 1))) (Gat.blkMax (zK m c (rowOf t r)) (t.val % 8)) := by
    intro r
    by_cases h1 : t.val % 8 = 7
    · exact (congrFun (mAt_C m c t h0 h1) (ix2 r (0 : Fin 1))).trans (mnew_point m c t _ r)
    · exact (congrFun (mAt_B m c t h0 h1) (ix2 r (0 : Fin 1))).trans (mnew_point m c t _ r)
  have hacc : ∀ (r : Fin 1024) (f : Fin 65), accAt m c t.val t.isLt (ix2 r f)
      = Ideal.exp (mAt m c (t.val - 1) (Nat.lt_of_le_of_lt (Nat.sub_le _ _) t.isLt) (ix2 r (0 : Fin 1))
            - max (mAt m c (t.val - 1) (Nat.lt_of_le_of_lt (Nat.sub_le _ _) t.isLt) (ix2 r (0 : Fin 1))) (Gat.blkMax (zK m c (rowOf t r)) (t.val % 8)))
          * accAt m c (t.val - 1) (Nat.lt_of_le_of_lt (Nat.sub_le _ _) t.isLt) (ix2 r f)
        + ∑ k : Fin 1024, Ideal.exp (zK m c (rowOf t r) (Gat.col (t.val % 8) k)
            - max (mAt m c (t.val - 1) (Nat.lt_of_le_of_lt (Nat.sub_le _ _) t.isLt) (ix2 r (0 : Fin 1))) (Gat.blkMax (zK m c (rowOf t r)) (t.val % 8)))
          * haf m c (Gat.col (t.val % 8) k) f := by
    intro r f
    by_cases h1 : t.val % 8 = 7
    · exact (congrFun (accAt_C m c t h0 h1) (ix2 r f)).trans (accnew_point m c t _ _ r f)
    · exact (congrFun (accAt_B m c t h0 h1) (ix2 r f)).trans (accnew_point m c t _ _ r f)
  constructor
  · intro r
    rw [hm r, ih.1 r, hrow r, e]
    rfl
  · intro r f
    rw [hacc r f, ih.1 r, ih.2 r f, hrow r, e]
    rfl

/-- The invariant holds after every point. -/
theorem inv (c : Dev nD) (n : ℕ) : ∀ hn : n < cfg0.N, Inv m c n hn := by
  induction n with
  | zero => intro hn; exact inv_first m c ⟨0, hn⟩ rfl
  | succ k ih =>
    intro hn
    by_cases h0 : (k + 1) % 8 = 0
    · exact inv_first m c ⟨k + 1, hn⟩ h0
    · exact inv_next m c ⟨k + 1, hn⟩ h0 (ih (Nat.lt_of_succ_lt hn))

/-- The result array the specification names: entry `(R, f)` is `kerOut` of the region's arrays. -/
def G (c : Dev nD) : Vec Ideal S8192x64 .f32 := fun y => Gat.kerOut (haf m c) (zK m c) (y 0) (y 1)

/-- At the last key block of a query block the output block's entry `(r, f)` is `kerOut` at query `rowOf t r`. -/
theorem outAt_last (c : Dev nD) (t : Fin cfg0.N) (h1 : t.val % 8 = 7) (r : Fin 1024) (f : Fin 64) :
    outAt m c t.val t.isLt (ix2 r f) = Gat.kerOut (haf m c) (zK m c) (rowOf t r) f := by
  have h0 : ¬t.val % 8 = 0 := by omega
  refine (congrFun (outAt_C m c t h0 h1) (ix2 r f)).trans ?_
  refine (pay3_apply (accAt m c t.val t.isLt) r f).trans ?_
  rw [(inv m c t.val t.isLt).2 r f.castSucc, (inv m c t.val t.isLt).2 r (Fin.last 64), h1]
  rfl

/-- The output block of a last-key-block point, as one function of the block index. -/
theorem outAt_eq (c : Dev nD) (t : Fin cfg0.N) (h1 : t.val % 8 = 7) :
    (outsAt0 m c t.val t.isLt).1 = fun y : S1024x64.Idx => Gat.kerOut (haf m c) (zK m c) (rowOf t (y 0)) (y 1) := by
  funext y
  obtain ⟨r, f, rfl⟩ : ∃ (r : Fin 1024) (f : Fin 64), y = ix2 r f := ⟨y 0, y 1, eq_ix2 y⟩
  exact outAt_last m c t h1 r f

/-- The result window's block read of any array contents, at a block index. -/
theorem read_blk4 (t : Fin cfg0.N) (Gf : Vec Ideal S8192x64 .f32) (j : ((cfg0.win 4).xblock (grid0.coords t)).Idx) :
    ((cfg0.win 4).blk t).view.read (Elt Ideal) Gf j = Gf (((cfg0.win 4).blk t).view.emb j) := rfl

/-- What the last key block of a query block writes back is its block of `G`. -/
theorem flushed_eq (c : Dev nD) (t : Fin cfg0.N) (h1 : t.val % 8 = 7) :
    (dats m 0 c).flushed 4 t = ((cfg0.win 4).blk t).view.read (Elt Ideal) (G m c) := by
  rw [Value.flushed4, outAt_eq m c t h1]
  obtain ⟨-, -, -, -, -, -, -, -, e0, e1, -⟩ := idx_facts t
  funext j
  rw [read_blk4 t (G m c) j]
  unfold G
  dsimp only [Pipeline.Window.cut]
  refine congrArg₂ (Gat.kerOut (haf m c) (zK m c)) (Fin.ext ?_) (Fin.ext ?_)
  · show t.val / 8 * 1024 + (j 0).val = win0_4.index t (0 : Fin 2) * 1024 + 1 * (j 0).val
    omega
  · show (j 1).val = win0_4.index t (1 : Fin 2) * 64 + 1 * (j 1).val
    omega

/-- An index of the result array is in point `t`'s block iff each coordinate is in the block's range. -/
theorem mem_blk (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v9).slice (win0_4.rect t)).set ↔ _
  rw [View.set_slice_whole, Rect.mem_set_unit]
  exact Iff.rfl

/-- Every entry of the result array is in the block some last-key-block point writes back. -/
theorem cover (i : S8192x64.Idx) : ∃ t : Fin cfg0.N, (cfg0.win 4).flush t = true ∧ i ∈ ((cfg0.win 4).blk t).view.set := by
  have hi0 : (i 0).val < 8192 := (i 0).isLt
  have hi1 : (i 1).val < 64 := (i 1).isLt
  have hN : cfg0.N = 64 := N_0
  refine ⟨⟨(i 0).val / 1024 * 8 + 7, by omega⟩, (flush_iff _).2 (by show ((i 0).val / 1024 * 8 + 7) % 8 = 7; omega), ?_⟩
  rw [mem_blk]
  obtain ⟨-, -, -, -, -, -, -, -, e0, e1, -⟩ := idx_facts ⟨(i 0).val / 1024 * 8 + 7, by omega⟩
  intro a
  match a with
  | ⟨0, _⟩ =>
    show win0_4.index _ (0 : Fin 2) * 1024 ≤ (i 0).val ∧ (i 0).val < win0_4.index _ (0 : Fin 2) * 1024 + 1024
    rw [e0]
    show ((i 0).val / 1024 * 8 + 7) / 8 * 1024 ≤ (i 0).val ∧ (i 0).val < ((i 0).val / 1024 * 8 + 7) / 8 * 1024 + 1024
    omega
  | ⟨1, _⟩ =>
    show win0_4.index _ (1 : Fin 2) * 64 ≤ (i 1).val ∧ (i 1).val < win0_4.index _ (1 : Fin 2) * 64 + 64
    rw [e1]
    omega

/-- THE RESULT ARRAY after the run is `G`. -/
theorem final (c : Dev nD) : (dats m 0 c).arrAt 4 cfg0.N = G m c :=
  (dats m 0 c).arrAt_eq_of_cover 4 (G m c) (fun t hf => flushed_eq m c t ((flush_iff t).1 hf)) cover

end Cert.KernelIdeal.KerRun

end
-- ==== Proof.KerValue.lean ====
/-
  The kernel's run: its result buffer ends at `Gat.kerFn` of the four argument arrays. The region finds the two
  score vectors, the key scores laid out as a row, and the features with an all-ones column appended, as the host
  operations before it left them; read at an index they are the specification's `s1Of`, `s2Of`, `haugOf`, and the
  adjacency array is the argument itself.
-/
import proofs.«430184_j75746043232803_3_alg».proof.Proof.KerRun
import Idealize.ShloMosaic.Lib.StableHlo.Run

noncomputable section

namespace Cert.KernelIdeal.KerValue

open Cert.KernelIdeal Cert.KernelIdeal.Gen Idealize.ShloMosaic Idealize.ShloMosaic.TcCoe Idealize.SL.Sem Idealize.ShloMosaic.ValueIdx
open Cert.KernelIdeal.KerBlocks Cert.KernelIdeal.KerPoint Cert.KernelIdeal.KerRun Idealize.ShloMosaic.StableHlo

variable (m : (ℓ : Loc nD τ sig) → Buf (Elt Ideal) ℓ)

/-- The argument arrays as launched, at their literal types. -/
abbrev xA (c : Dev nD) : FVec Ideal S8192x256 .f32 := m ((c.tc : Thread nD τ).loc main_arg0)
abbrev adjA (c : Dev nD) : IVec S8192x8192 32 := m ((c.tc : Thread nD τ).loc main_arg1)
abbrev wA (c : Dev nD) : FVec Ideal S256x64 .f32 := m ((c.tc : Thread nD τ).loc main_arg2)
abbrev aA (c : Dev nD) : FVec Ideal S128x1 .f32 := m ((c.tc : Thread nD τ).loc main_arg3)

/-- The projected features `x · W`. -/
abbrev hArr (c : Dev nD) : FVec Ideal S8192x64 .f32 :=
  Host.dotGeneral (F := Ideal) dot_S8192x256_S256x64_S8192x64_1_0_0_1_n_n none (xA m c) (wA m c)

theorem hArr_apply (c : Dev nD) (j : Fin 8192) (f : Fin 64) : hArr m c (ix2 j f) = Gat.hOf (xA m c) (wA m c) j f :=
  Cert.LibMatProd.dotGeneral_apply (φ₁ := .f32) (φ₂ := .f32) dot_S8192x256_S256x64_S8192x64_1_0_0_1_n_n rfl none (xA m c) (wA m c) j f

/-- The two halves of the attention vector. -/
theorem a1_apply (a : FVec Ideal S128x1 .f32) (f : Fin 64) :
    extractStridedSlice S64x1 ![0, 0] a slices_S128x1_S64x1_0_0 (ix2 f (0 : Fin 1)) = Gat.a1Of a f :=
  extractStridedSlice_apply _ a _ (ix2 f (0 : Fin 1)) (ix2 (Fin.castAdd 64 f) (0 : Fin 1)) fun ax => by
    match ax with
    | ⟨0, _⟩ => exact (Nat.zero_add _).symm
    | ⟨1, _⟩ => rfl

theorem a2_apply (a : FVec Ideal S128x1 .f32) (f : Fin 64) :
    extractStridedSlice S64x1 ![64, 0] a slices_S128x1_S64x1_64_0 (ix2 f (0 : Fin 1)) = Gat.a2Of a f :=
  extractStridedSlice_apply _ a _ (ix2 f (0 : Fin 1)) (ix2 (Fin.natAdd 64 f) (0 : Fin 1)) fun ax => by
    match ax with
    | ⟨0, _⟩ => rfl
    | ⟨1, _⟩ => rfl

/-- What the host operations before the region leave in the three computed arrays. -/
theorem s1arr_eq (c : Dev nD) : s1arr m c = Host.dotGeneral (F := Ideal) dot_S8192x64_S64x1_S8192x1_1_0_0_1_n_n none (hArr m c)
    (extractStridedSlice S64x1 ![0, 0] (aA m c) slices_S128x1_S64x1_0_0) := by
  show V m c main_v3 = _
  dsimp only [Gen.V, Gen.hostOps0]
  after_results

theorem s2arr_eq (c : Dev nD) : s2arr m c = shapeCast S1x8192 (Host.dotGeneral (F := Ideal) dot_S8192x64_S64x1_S8192x1_1_0_0_1_n_n none (hArr m c)
    (extractStridedSlice S64x1 ![64, 0] (aA m c) slices_S128x1_S64x1_64_0)) shapeCasts_S8192x1_S1x8192 := by
  show V m c main_v5 = _
  dsimp only [Gen.V, Gen.hostOps0]
  after_results
  rfl

theorem haarr_eq (c : Dev nD) : haarr m c = concatenate S8192x65 1
    [⟨S8192x64, truncf .bf16 (hArr m c) bitsLt_bf16_f32⟩,
      ⟨S8192x1, broadcastInDim S8192x1 ![] bcast_S_S8192x1 (constant (F := Ideal) S_ .bf16 0x3F80#16)⟩]
    concatenates_S8192x64_S8192x1_S8192x65_d1 := by
  show V m c main_v8 = _
  dsimp only [Gen.V, Gen.hostOps0]
  after_results

/-- Read at an index they are the specification's functions of the arguments. -/
theorem s1f_eq (c : Dev nD) (R : Fin 8192) : s1f m c R = Gat.s1Of (xA m c) (wA m c) (aA m c) R := by
  unfold s1f
  rw [s1arr_eq]
  refine (Cert.LibMatProd.dotGeneral_apply (φ₁ := .f32) (φ₂ := .f32) dot_S8192x64_S64x1_S8192x1_1_0_0_1_n_n rfl none (hArr m c) _ R (0 : Fin 1)).trans ?_
  unfold Gat.s1Of
  refine Finset.sum_congr rfl fun f _ => ?_
  rw [hArr_apply, a1_apply]

theorem s2f_eq (c : Dev nD) (j : Fin 8192) : s2f m c j = Gat.s2Of (xA m c) (wA m c) (aA m c) j := by
  unfold s2f
  rw [s2arr_eq]
  refine (shapeCast_apply _ shapeCasts_S8192x1_S1x8192 (ix2 (0 : Fin 1) j) (ix2 j (0 : Fin 1)) (by
    rw [Shape.rowMajor_val_two, Shape.rowMajor_val_two]
    show j.val * 1 + 0 = 0 * 8192 + j.val
    omega)).trans ?_
  refine (Cert.LibMatProd.dotGeneral_apply (φ₁ := .f32) (φ₂ := .f32) dot_S8192x64_S64x1_S8192x1_1_0_0_1_n_n rfl none (hArr m c) _ j (0 : Fin 1)).trans ?_
  unfold Gat.s2Of
  refine Finset.sum_congr rfl fun f _ => ?_
  rw [hArr_apply, a2_apply]

theorem mskf_eq (c : Dev nD) (R j : Fin 8192) : mskf m c R j = Gat.mskOf (adjA m c) R j := by
  unfold mskf Gat.mskOf
  show IntOp.cmpi .sgt (V m c main_arg1 (ix2 R j)) 0#32 = _
  rw [V_main_arg1]

theorem haf_eq (c : Dev nD) (j : Fin 8192) (f : Fin 65) : haf m c j f = Gat.haugOf (xA m c) (wA m c) j f := by
  unfold haf Gat.haugOf
  rw [haarr_eq]
  by_cases hf : f.val < 64
  · rw [dif_pos hf]
    refine (concatenate_pair_apply_left (t := S8192x65) (s₁ := S8192x64) (s₂ := S8192x1) (1 : Fin 2) _ _ concatenates_S8192x64_S8192x1_S8192x65_d1 (ix2 j f) rfl (ix2 j (⟨f.val, hf⟩ : Fin 64)) (fun b => by
      match b with
      | ⟨0, _⟩ => rfl
      | ⟨1, _⟩ => rfl)).trans ?_
    rw [truncf_apply, hArr_apply]
  · rw [dif_neg hf]
    have hf' : f.val = 64 := by have := f.isLt; omega
    refine (concatenate_pair_apply_right (t := S8192x65) (s₁ := S8192x64) (s₂ := S8192x1) (1 : Fin 2) _ _ concatenates_S8192x64_S8192x1_S8192x65_d1 (ix2 j f) rfl rfl (ix2 j (0 : Fin 1)) (fun b hb => by
      match b with
      | ⟨0, _⟩ => rfl
      | ⟨1, _⟩ => exact absurd rfl hb) (by show 0 + 64 = f.val; omega)).trans ?_
    show Ideal.ofBits .bf16 0x3F80#16 = 1
    exact Gat.Consts.ofBits_one_bf16

/-- So the result array is the specification's function of the arguments. -/
theorem G_eq (c : Dev nD) : G m c = Gat.kerFn (xA m c) (adjA m c) (wA m c) (aA m c) := by
  funext y
  unfold G Gat.kerFn
  have e1 : haf m c = Gat.haugOf (xA m c) (wA m c) := funext fun j => funext fun f => haf_eq m c j f
  have e2 : zK m c = Gat.logitMax (Gat.s1Of (xA m c) (wA m c) (aA m c)) (Gat.s2Of (xA m c) (wA m c) (aA m c)) (Gat.mskOf (adjA m c)) := by
    unfold zK
    rw [show s1f m c = Gat.s1Of (xA m c) (wA m c) (aA m c) from funext (s1f_eq m c),
      show s2f m c = Gat.s2Of (xA m c) (wA m c) (aA m c) from funext (s2f_eq m c),
      show mskf m c = Gat.mskOf (adjA m c) from funext fun R => funext fun j => mskf_eq m c R j]
  rw [e1, e2]

/-- Every weakly fair execution of the kernel's program terminates with its result at `Gat.kerFn` of the arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9)
          = Gat.kerFn (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((KerRun.final m c).trans (G_eq m c)), (h c).2⟩)
    (Cert.KernelIdeal.Value.run_blocks m ρ)

end Cert.KernelIdeal.KerValue

end
-- ==== Proof.RefValue.lean ====
/-
  The reference's run: its result buffer ends at `Gat.refFn` of the four argument arrays.

  The reference is a straight line of fifty-four host operations once its calls (the leaky relu, the three
  selections, the `elu`) are unfolded at their sites. Its result buffer therefore holds one composed term of the
  four arguments (`refTerm`, built stage by stage below). Read at an index `(i, f)` each stage is what the
  mathematics names: the three matrix products are sums over the shared axis, the two slices of the attention
  vector are its halves, the transposed and broadcast score columns add to `s1 i + s2 j`, the comparison and
  selection pairs are the leaky relu, the mask and `elu`, the row maximum is a fold of `max` from `-∞` (a further
  `max` with `-∞` changes nothing), the row sum is `0 + Σ`, and the quotient is the ideal division; together
  `Gat.refOut` of the projected features and the masked logits.
-/
import proofs.«430184_j75746043232803_3_alg».proof.ReferenceIdeal
import proofs.«430184_j75746043232803_3_alg».proof.Proof.Gen.ReferenceIdeal
import proofs.«430184_j75746043232803_3_alg».proof.Proof.Spec
import proofs.«430184_j75746043232803_3_alg».proof.Proof.LibMatProd
import Idealize.ShloMosaic.Lib.StableHlo.Run
import Idealize.ShloMosaic.Lib.IdealHost
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The reference's result as one term of the four arguments, stage by stage -/

/-- The projected features `x · W`. -/
def hT (x : FVec Ideal S8192x256 .f32) (W : FVec Ideal S256x64 .f32) : FVec Ideal S8192x64 .f32 :=
  Host.dotGeneral (F := Ideal) dot_S8192x256_S256x64_S8192x64_1_0_0_1_n_n none x W
/-- The first 64 rows of the attention vector. -/
def a1T (a : FVec Ideal S128x1 .f32) : FVec Ideal S64x1 .f32 := extractStridedSlice S64x1 ![0, 0] a slices_S128x1_S64x1_0_0
/-- The last 64 rows of the attention vector. -/
def a2T (a : FVec Ideal S128x1 .f32) : FVec Ideal S64x1 .f32 := extractStridedSlice S64x1 ![64, 0] a slices_S128x1_S64x1_64_0
/-- A score column `h · a'`. -/
def sT (h : FVec Ideal S8192x64 .f32) (a' : FVec Ideal S64x1 .f32) : FVec Ideal S8192x1 .f32 :=
  Host.dotGeneral (F := Ideal) dot_S8192x64_S64x1_S8192x1_1_0_0_1_n_n none h a'
/-- The raw logits `s1 i + s2 j`. -/
def eT (s1 s2 : FVec Ideal S8192x1 .f32) : FVec Ideal S8192x8192 .f32 :=
  addf (broadcastInDim S8192x8192 ![0, 1] bcast_S8192x1_S8192x8192_0_1 s1)
    (broadcastInDim S8192x8192 ![0, 1] bcast_S1x8192_S8192x8192_0_1 (transpose S1x8192 [1, 0] s2 transposes_S8192x1_S1x8192_1_0))
/-- Leaky relu by comparison and selection. -/
def lrT (e : FVec Ideal S8192x8192 .f32) : FVec Ideal S8192x8192 .f32 :=
  select (cmpf .oge e (broadcastInDim S8192x8192 ![] bcast_S_S8192x8192 (constant (F := Ideal) S_ .f32 0x00000000#32))) e
    (mulf (broadcastInDim S8192x8192 ![] bcast_S_S8192x8192 (id (constant (F := Ideal) S_ .f32 0x3E4CCCCD#32))) e)
/-- The masked logits. -/
def zT (adj : IVec S8192x8192 32) (l : FVec Ideal S8192x8192 .f32) : FVec Ideal S8192x8192 .f32 :=
  select (cmpi .sgt adj (broadcastInDim S8192x8192 ![] bcast_S_S8192x8192 (constantI S_ 32 0#32))) l
    (broadcastInDim S8192x8192 ![] bcast_S_S8192x8192 (id (constant (F := Ideal) S_ .f32 0xD368D4A5#32)))
/-- The rows' maxima. -/
def mT (z : FVec Ideal S8192x8192 .f32) : FVec Ideal S8192 .f32 :=
  maximumf (broadcastInDim S8192 ![] bcast_S_S8192 (constant (F := Ideal) S_ .f32 0xFF800000#32))
    (Host.reduce (FloatOps.maximumf (F := Ideal) (φ := .f32)) z (constant (F := Ideal) S_ .f32 0xFF800000#32) reducesTo_S8192x8192_S8192_d1 h_S_)
/-- The unnormalised weights. -/
def pT (z : FVec Ideal S8192x8192 .f32) : FVec Ideal S8192x8192 .f32 :=
  Host.exp (F := Ideal) (subf z (broadcastInDim S8192x8192 ![0, 1] bcast_S8192x1_S8192x8192_0_1
    (broadcastInDim S8192x1 ![0] bcast_S8192_S8192x1_0 (mT z))))
/-- The normalised weights. -/
def attT (p : FVec Ideal S8192x8192 .f32) : FVec Ideal S8192x8192 .f32 :=
  Host.divf (F := Ideal) p (broadcastInDim S8192x8192 ![0, 1] bcast_S8192x1_S8192x8192_0_1
    (broadcastInDim S8192x1 ![0] bcast_S8192_S8192x1_0
      (Host.reduceAdd (F := Ideal) p (constant (F := Ideal) S_ .f32 0x00000000#32) reducesTo_S8192x8192_S8192_d1 h_S_)))
/-- The weights contracted with the features. -/
def yT (att : FVec Ideal S8192x8192 .f32) (h : FVec Ideal S8192x64 .f32) : FVec Ideal S8192x64 .f32 :=
  Host.dotGeneral (F := Ideal) dot_S8192x8192_S8192x64_S8192x64_1_0_0_1_n_n none att h
/-- `elu` by comparison and selection. -/
def eluT (y : FVec Ideal S8192x64 .f32) : FVec Ideal S8192x64 .f32 :=
  select (cmpf .ogt y (broadcastInDim S8192x64 ![] bcast_S_S8192x64 (constant (F := Ideal) S_ .f32 0x00000000#32))) y
    (mulf (broadcastInDim S8192x64 ![] bcast_S_S8192x64 (constant (F := Ideal) S_ .f32 0x3F800000#32))
      (Host.expm1 (F := Ideal) (select (cmpf .ogt y (broadcastInDim S8192x64 ![] bcast_S_S8192x64 (constant (F := Ideal) S_ .f32 0x00000000#32)))
        (broadcastInDim S8192x64 ![] bcast_S_S8192x64 (id (constant (F := Ideal) S_ .f32 0x00000000#32))) y)))
/-- The reference's result as one term of the four arguments. -/
def refTerm (x : FVec Ideal S8192x256 .f32) (adj : IVec S8192x8192 32) (W : FVec Ideal S256x64 .f32) (a : FVec Ideal S128x1 .f32) :
    FVec Ideal S8192x64 .f32 :=
  eluT (yT (attT (pT (zT adj (lrT (eT (sT (hT x W) (a1T a)) (sT (hT x W) (a2T a))))))) (hT x W))

/-! ## The term read at an index -/

section Read
open Idealize.ShloMosaic.ValueIdx

/-- A selection on a decided proposition's bit is the conditional. -/
theorem select_ofBool {α : Type} (p : Prop) [Decidable p] (u v : α) :
    Scalar.select (BitVec.ofBool (decide p)) u v = if p then u else v := by
  by_cases hp : p
  · rw [if_pos hp, decide_eq_true hp]; exact select_one u v
  · rw [if_neg hp, decide_eq_false hp]; exact select_zero u v

/-- The pattern of `-∞`. -/
theorem ofBits_negInf : Ideal.ofBits .f32 0xFF800000#32 = ⊥ := by simp [Ideal.ofBits, Ideal.ieee]

/-- A column vector kept as `[n, 1]` and broadcast along the rows reads, at `(i, j)`, the vector at `i`. -/
theorem bcol_apply {α : Type} (v : S8192.Idx → α) (i j : Fin 8192) :
    broadcastInDim S8192x8192 ![0, 1] bcast_S8192x1_S8192x8192_0_1 (broadcastInDim S8192x1 ![0] bcast_S8192_S8192x1_0 v) (ix2 i j)
      = v (ix1 i) := by
  refine (broadcastInDim_apply _ _ _ (ix2 i j) (ix2 i (0 : Fin 1)) fun c => ?_).trans ?_
  · match c with
    | ⟨0, _⟩ => rfl
    | ⟨1, _⟩ => rfl
  · refine broadcastInDim_apply _ _ v (ix2 i (0 : Fin 1)) (ix1 i) fun c => ?_
    match c with
    | ⟨0, _⟩ => rfl

/-- The source index over row `i` with column `k` inserted is `(i, k)`. -/
theorem lift_row (h : S8192x8192.Reduces [1] S8192) (i k : Fin 8192) : h.lift (ix1 i) k = ix2 i k := by
  funext c
  apply Fin.ext
  match c with
  | ⟨0, _⟩ => rfl
  | ⟨1, _⟩ => rfl

theorem red_S8192x8192_S8192 : S8192x8192.Reduces [1] S8192 := by decide

theorem hT_apply (x : FVec Ideal S8192x256 .f32) (W : FVec Ideal S256x64 .f32) (j : Fin 8192) (f : Fin 64) :
    hT x W (ix2 j f) = Gat.hOf x W j f :=
  Cert.LibMatProd.dotGeneral_apply _ rfl none x W j f

theorem a1T_apply (a : FVec Ideal S128x1 .f32) (f : Fin 64) : a1T a (ix2 f (0 : Fin 1)) = Gat.a1Of a f := by
  refine extractStridedSlice_apply _ a _ (ix2 f (0 : Fin 1)) (ix2 (Fin.castAdd 64 f) (0 : Fin 1)) fun c => ?_
  match c with
  | ⟨0, _⟩ => show f.val = 0 + f.val; omega
  | ⟨1, _⟩ => rfl

theorem a2T_apply (a : FVec Ideal S128x1 .f32) (f : Fin 64) : a2T a (ix2 f (0 : Fin 1)) = Gat.a2Of a f := by
  refine extractStridedSlice_apply _ a _ (ix2 f (0 : Fin 1)) (ix2 (Fin.natAdd 64 f) (0 : Fin 1)) fun c => ?_
  match c with
  | ⟨0, _⟩ => rfl
  | ⟨1, _⟩ => rfl

theorem sT_apply (h : FVec Ideal S8192x64 .f32) (a' : FVec Ideal S64x1 .f32) (i : Fin 8192) :
    sT h a' (ix2 i (0 : Fin 1)) = ∑ f : Fin 64, h (ix2 i f) * a' (ix2 f (0 : Fin 1)) :=
  Cert.LibMatProd.dotGeneral_apply _ rfl none h a' i 0

theorem eT_apply (s1 s2 : FVec Ideal S8192x1 .f32) (i j : Fin 8192) :
    eT s1 s2 (ix2 i j) = s1 (ix2 i (0 : Fin 1)) + s2 (ix2 j (0 : Fin 1)) := by
  unfold eT
  rw [addf_apply]
  congr 1
  · refine broadcastInDim_apply _ _ s1 (ix2 i j) (ix2 i (0 : Fin 1)) fun c => ?_
    match c with
    | ⟨0, _⟩ => rfl
    | ⟨1, _⟩ => rfl
  · refine (broadcastInDim_apply _ _ _ (ix2 i j) (ix2 (0 : Fin 1) j) fun c => ?_).trans ?_
    · match c with
      | ⟨0, _⟩ => rfl
      | ⟨1, _⟩ => rfl
    · exact transpose_ix2_apply s2 _ (0 : Fin 1) j

theorem lrT_apply (e : FVec Ideal S8192x8192 .f32) (y : S8192x8192.Idx) : lrT e y = Gat.lrelu (e y) := by
  unfold lrT Gat.lrelu Gat.slope
  rw [select_apply, cmpf_apply, mulf_apply, broadcastInDim_scalar_apply, broadcastInDim_scalar_apply]
  show Scalar.select (Ideal.cmp .oge (e y) (Ideal.ofBits .f32 0x00000000#32)) (e y) (Ideal.ofBits .f32 0x3E4CCCCD#32 * e y) = _
  rw [Ideal.ofBits_zero_f32]
  exact select_ofBool _ _ _

theorem zT_apply (adj : IVec S8192x8192 32) (l : FVec Ideal S8192x8192 .f32) (i j : Fin 8192) :
    zT adj l (ix2 i j) = if Gat.mskOf adj i j = 1#1 then l (ix2 i j) else Gat.negBig := by
  unfold zT Gat.mskOf Gat.negBig
  rw [select_apply, broadcastInDim_scalar_apply]
  rfl

theorem mT_apply (z : FVec Ideal S8192x8192 .f32) (i : Fin 8192) :
    mT z (ix1 i) = Gat.rowMax fun j => z (ix2 i j) := by
  unfold mT Gat.rowMax
  rw [maximumf_apply, broadcastInDim_scalar_apply, constant_apply, ofBits_negInf,
    Host.reduce_eq_fold_single _ z _ reducesTo_S8192x8192_S8192_d1 red_S8192x8192_S8192 h_S_ (ix1 i)]
  rw [constant_apply, ofBits_negInf]
  have hf : (z ∘ red_S8192x8192_S8192.lift (ix1 i)) = fun j : Fin 8192 => z (ix2 i j) :=
    funext fun k => congrArg z (lift_row _ i k)
  rw [hf]
  exact max_eq_right bot_le

theorem pT_apply (z : FVec Ideal S8192x8192 .f32) (i j : Fin 8192) :
    pT z (ix2 i j) = Gat.pexp (fun j => z (ix2 i j)) j := by
  unfold pT Gat.pexp
  show Ideal.exp (subf z _ (ix2 i j)) = _
  rw [subf_apply, bcol_apply, mT_apply]

theorem attT_apply (p : FVec Ideal S8192x8192 .f32) (i j : Fin 8192) :
    attT p (ix2 i j) = Ideal.div (p (ix2 i j)) (0 + ∑ j' : Fin 8192, p (ix2 i j')) := by
  unfold attT
  rw [hostDivf_apply, bcol_apply, hostReduceAdd_apply,
    Ideal.hostReduceAdd_single reducesTo_S8192x8192_S8192_d1 red_S8192x8192_S8192 p _ (ix1 i), constant_apply, Ideal.ofBits_zero_f32]
  congr 2
  exact Finset.sum_congr rfl fun k _ => congrArg p (lift_row _ i k)

theorem yT_apply (att : FVec Ideal S8192x8192 .f32) (h : FVec Ideal S8192x64 .f32) (i : Fin 8192) (f : Fin 64) :
    yT att h (ix2 i f) = ∑ j : Fin 8192, att (ix2 i j) * h (ix2 j f) :=
  Cert.LibMatProd.dotGeneral_apply _ rfl none att h i f

theorem eluT_apply (y : FVec Ideal S8192x64 .f32) (q : S8192x64.Idx) : eluT y q = Gat.elu (y q) := by
  unfold eluT Gat.elu
  rw [select_apply, cmpf_apply, mulf_apply, broadcastInDim_scalar_apply, broadcastInDim_scalar_apply]
  show Scalar.select (Ideal.cmp .ogt (y q) (Ideal.ofBits .f32 0x00000000#32)) (y q)
      (Ideal.ofBits .f32 0x3F800000#32 * (Ideal.exp (Scalar.select (Ideal.cmp .ogt (y q) (Ideal.ofBits .f32 0x00000000#32))
        (Ideal.ofBits .f32 0x00000000#32) (y q)) - 1)) = _
  rw [Ideal.ofBits_zero_f32, Ideal.ofBits_one_f32, one_mul]
  show Scalar.select (BitVec.ofBool (decide ((0 : EReal) < y q))) _ _ = _
  rw [select_ofBool]
  by_cases hy : (0 : EReal) < y q
  · rw [if_pos hy, if_pos hy]
  · rw [if_neg hy, if_neg hy]
    show Ideal.exp (Scalar.select (BitVec.ofBool (decide ((0 : EReal) < y q))) _ _) - 1 = _
    rw [select_ofBool, if_neg hy]

/-- The reference's term at `(i, f)` is the mathematics' `refOut` of the projected features and the masked logits. -/
theorem refTerm_apply (x : FVec Ideal S8192x256 .f32) (adj : IVec S8192x8192 32) (W : FVec Ideal S256x64 .f32) (a : FVec Ideal S128x1 .f32)
    (i : Fin 8192) (f : Fin 64) :
    refTerm x adj W a (ix2 i f)
      = Gat.refOut (Gat.hOf x W) (Gat.logit (Gat.s1Of x W a) (Gat.s2Of x W a) (Gat.mskOf adj)) i f := by
  have hs1 : ∀ i, sT (hT x W) (a1T a) (ix2 i (0 : Fin 1)) = Gat.s1Of x W a i := fun i => by
    rw [sT_apply]; exact Finset.sum_congr rfl fun f _ => by rw [hT_apply, a1T_apply]
  have hs2 : ∀ i, sT (hT x W) (a2T a) (ix2 i (0 : Fin 1)) = Gat.s2Of x W a i := fun i => by
    rw [sT_apply]; exact Finset.sum_congr rfl fun f _ => by rw [hT_apply, a2T_apply]
  have hz : ∀ i, (fun j => zT adj (lrT (eT (sT (hT x W) (a1T a)) (sT (hT x W) (a2T a)))) (ix2 i j))
      = Gat.logit (Gat.s1Of x W a) (Gat.s2Of x W a) (Gat.mskOf adj) i := fun i => funext fun j => by
    rw [zT_apply, lrT_apply, eT_apply, hs1, hs2]; rfl
  have hp : ∀ j, pT (zT adj (lrT (eT (sT (hT x W) (a1T a)) (sT (hT x W) (a2T a))))) (ix2 i j)
      = Gat.pexp (Gat.logit (Gat.s1Of x W a) (Gat.s2Of x W a) (Gat.mskOf adj) i) j := fun j => by
    rw [pT_apply, hz]
  unfold refTerm Gat.refOut
  rw [eluT_apply, yT_apply]
  refine congrArg Gat.elu (Finset.sum_congr rfl fun j _ => ?_)
  rw [attT_apply, hT_apply, hp, Finset.sum_congr rfl fun j' _ => hp j']

/-- The reference's term is the mathematics' `refFn`. -/
theorem refTerm_eq (x : FVec Ideal S8192x256 .f32) (adj : IVec S8192x8192 32) (W : FVec Ideal S256x64 .f32) (a : FVec Ideal S128x1 .f32) :
    refTerm x adj W a = Gat.refFn x adj W a := by
  funext y
  rw [eq_ix2 y]
  exact refTerm_apply x adj W a (y 0) (y 1)

end Read

/-! ## The run -/

section Run
variable {F : FTy → Type} [FloatOps F]

/-- @main's fifty-four operations in order, the calls unfolded at their sites over the calls' records. -/
abbrev ops : List (HloOp τ sig (Elt F)) :=
  [ binary main_arg0 main_arg2 main_v0 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    unary main_arg3 main_v1 ((extractStridedSlice S64x1 ![0, 0] · slices_S128x1_S64x1_0_0) : (⟨S128x1, .f32⟩ : BufTy).Contents (Elt F) → (⟨S64x1, .f32⟩ : BufTy).Contents (Elt F)),
    unary main_arg3 main_v2 ((extractStridedSlice S64x1 ![64, 0] · slices_S128x1_S64x1_64_0) : (⟨S128x1, .f32⟩ : BufTy).Contents (Elt F) → (⟨S64x1, .f32⟩ : BufTy).Contents (Elt F)),
    binary main_v0 main_v1 main_v3 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    binary main_v0 main_v2 main_v4 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_v4 main_v5 ((transpose S1x8192 [1, 0] · transposes_S8192x1_S1x8192_1_0) : (⟨S8192x1, .f32⟩ : BufTy).Contents (Elt F) → (⟨S1x8192, .f32⟩ : BufTy).Contents (Elt F)),
    unary main_v3 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v8) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v8) main_call0.v4 mulf,
    TRef.ternary main_call0.v1 (.of main_v8) main_call0.v4 main_call0.call0.v0 select,
    nullary main_c (constantI S_ 32 0#32),
    unary main_c main_v10 (broadcastInDim S8192x8192 ![] bcast_S_S8192x8192 : (⟨S_, .i32⟩ : BufTy).Contents (Elt F) → (⟨S8192x8192, .i32⟩ : BufTy).Contents (Elt F)),
    binary main_arg1 main_v10 main_v11 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD368D4A5#32),
    TRef.unary (.of main_cst_0) main_call1.v0 id,
    TRef.unary main_call1.v0 main_call1.v1 (broadcastInDim S8192x8192 ![] bcast_S_S8192x8192),
    TRef.ternary (.of main_v11) (.of main_v9) main_call1.v1 main_call1.v2 select,
    nullary main_cst_1 (constant S_ .f32 0xFF800000#32),
    binary main_v12 main_cst_1 main_v13 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v14 (broadcastInDim S8192 ![] bcast_S_S8192 : (⟨S_, .f32⟩ : BufTy).Contents (Elt F) → (⟨S8192, .f32⟩ : BufTy).Contents (Elt F)),
    binary main_v14 main_v13 main_v15 (maximumf : (⟨S8192, .f32⟩ : BufTy).Contents (Elt F) → (⟨S8192, .f32⟩ : BufTy).Contents (Elt F) → (⟨S8192, .f32⟩ : BufTy).Contents (Elt F)),
    unary main_v15 main_v16 (broadcastInDim S8192x1 ![0] bcast_S8192_S8192x1_0 : (⟨S8192, .f32⟩ : BufTy).Contents (Elt F) → (⟨S8192x1, .f32⟩ : BufTy).Contents (Elt F)),
    unary main_v16 main_v17 (broadcastInDim S8192x8192 ![0, 1] bcast_S8192x1_S8192x8192_0_1 : (⟨S8192x1, .f32⟩ : BufTy).Contents (Elt F) → (⟨S8192x8192, .f32⟩ : BufTy).Contents (Elt F)),
    binary main_v12 main_v17 main_v18 (subf : (⟨S8192x8192, .f32⟩ : BufTy).Contents (Elt F) → (⟨S8192x8192, .f32⟩ : BufTy).Contents (Elt F) → (⟨S8192x8192, .f32⟩ : BufTy).Contents (Elt F)),
    unary main_v18 main_v19 (Host.exp : (⟨S8192x8192, .f32⟩ : BufTy).Contents (Elt F) → (⟨S8192x8192, .f32⟩ : BufTy).Contents (Elt F)),
    nullary main_cst_3 (constant S_ .f32 0x00000000#32),
    binary main_v19 main_cst_3 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v20 main_v21 (broadcastInDim S8192x1 ![0] bcast_S8192_S8192x1_0 : (⟨S8192, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v19 main_v22 main_v23 (Host.divf : (⟨S8192x8192, .f32⟩ : BufTy).Contents (Elt F) → (⟨S8192x8192, .f32⟩ : BufTy).Contents (Elt F) → (⟨S8192x8192, .f32⟩ : BufTy).Contents (Elt F)),
    binary main_v23 main_v0 main_v24 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    TRef.nullary main_call2.cst (constant S_ .f32 0x00000000#32),
    TRef.unary main_call2.cst main_call2.v0 (broadcastInDim S8192x64 ![] bcast_S_S8192x64),
    TRef.binary (.of main_v24) main_call2.v0 main_call2.v1 (cmpf .ogt),
    TRef.nullary main_call2.cst_0 (constant S_ .f32 0x00000000#32),
    TRef.unary main_call2.cst_0 main_call2.v2 (broadcastInDim S8192x64 ![] bcast_S_S8192x64),
    TRef.binary (.of main_v24) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x64 ![] bcast_S_S8192x64),
    TRef.ternary main_call2.v3 main_call2.call0.v1 (.of main_v24) main_call2.call0.v2 select,
    TRef.unary main_call2.call0.v2 main_call2.v5 Host.expm1,
    TRef.nullary main_call2.cst_2 (constant S_ .f32 0x3F800000#32),
    TRef.unary main_call2.cst_2 main_call2.v6 (broadcastInDim S8192x64 ![] bcast_S_S8192x64),
    TRef.binary main_call2.v6 main_call2.v5 main_call2.v7 mulf,
    TRef.ternary main_call2.v1 (.of main_v24) main_call2.v7 main_call2.call1.v0 select ]

set_option maxRecDepth 1024 in
/-- @main is that straight line: the functions' definitions unfolded at their calls, sequencing reassociated. -/
theorem main_eq (c : Dev nD) : main (F := F) c = seq ops := by
  simp only [main, fn_leaky_relu.body, fn_where.body, fn_where_0.body, fn_elu.body, fn_where_1.body, fn_where_2.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Run

/-! ## The result -/

/-- The operations' fold at the result buffer is `refTerm` of the arguments' contents: each operation's result at
    its own buffer is its function of its operands' contents, and at every other buffer what was there. -/
theorem v25_eq (V : Valuation τ sig (Elt Ideal)) :
    after (ops (F := Ideal)) V (main_v25 : DevRef τ sig)
      = refTerm (V (main_arg0 : DevRef τ sig)) (V (main_arg1 : DevRef τ sig)) (V (main_arg2 : DevRef τ sig)) (V (main_arg3 : DevRef τ sig)) := by
  after_results_simp
  simp only [TRef.toBuf, TRef.ofBuf, cast_eq]
  simp only [refTerm, eluT, yT, attT, pT, mT, zT, lrT, eT, sT, a1T, a2T, hT]

/-- No operation writes an argument's buffer. -/
theorem arg0_eq (V : Valuation τ sig (Elt Ideal)) :
    after (ops (F := Ideal)) V (main_arg0 : DevRef τ sig) = V (main_arg0 : DevRef τ sig) := by
  after_results_simp
theorem arg1_eq (V : Valuation τ sig (Elt Ideal)) :
    after (ops (F := Ideal)) V (main_arg1 : DevRef τ sig) = V (main_arg1 : DevRef τ sig) := by
  after_results_simp
theorem arg2_eq (V : Valuation τ sig (Elt Ideal)) :
    after (ops (F := Ideal)) V (main_arg2 : DevRef τ sig) = V (main_arg2 : DevRef τ sig) := by
  after_results_simp
theorem arg3_eq (V : Valuation τ sig (Elt Ideal)) :
    after (ops (F := Ideal)) V (main_arg3 : DevRef τ sig) = V (main_arg3 : DevRef τ sig) := by
  after_results_simp

/-- Every weakly fair execution of the reference terminates with its result at `Gat.refFn` of the arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25)
          = Gat.refFn (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c main_v25).trans (v25_eq (launchContents m c))).trans (refTerm_eq _ _ _ _),
        (h c main_arg0).trans (arg0_eq (launchContents m c)),
        (h c main_arg1).trans (arg1_eq (launchContents m c)),
        (h c main_arg2).trans (arg2_eq (launchContents m c)),
        (h c main_arg3).trans (arg3_eq (launchContents m c))⟩)
    (run_main m ρ)

end Cert.ReferenceIdeal.RefValue

end
-- ==== Proof.Algebra.lean ====
/-
  The kernel's blocked, rescaled accumulation and the reference's normalise-then-contract softmax are one function
  of the arguments when the float inputs are finite.

  Everything is first shown to be (the coercion of) a real: the projected features, the scores, the logits, every
  running maximum. Over the reals the rescaling `exp (m - m') * exp (z - m) = exp (z - m')` and distributivity turn
  the blocked accumulator into one sum over all keys at the final maximum; the final maximum is the row's maximum
  because both are the least upper bound of the same family; and dividing once at the end equals normalising each
  weight, because the normaliser is a positive real.
-/
import proofs.«430184_j75746043232803_3_alg».proof.Proof.Spec
import Mathlib.Analysis.SpecialFunctions.Exp
import Mathlib.Data.EReal.Basic
import Mathlib.Data.EReal.Operations
import Mathlib.Data.EReal.Inv
import Mathlib.Data.Finset.Fold
import Mathlib.Data.Finset.Max
import Mathlib.Data.Fintype.BigOperators
import Mathlib.Algebra.BigOperators.Fin
import Mathlib.Algebra.Order.BigOperators.Group.Finset
import Mathlib.Logic.Equiv.Fin.Basic

noncomputable section

namespace Gat

open Idealize.ShloMosaic Idealize.ShloMosaic.ValueIdx

/-! ## The two constants are reals -/

/-- The slope's pattern denotes `13421773 / 2^26`, a real in `(0, 1]`. -/
private theorem slope_real : ∃ c : ℝ, 0 < c ∧ c ≤ 1 ∧ slope = (c : EReal) := by
  refine ⟨(13421773 : ℝ) / 67108864, by norm_num, by norm_num, ?_⟩
  simp [slope, Ideal.ofBits, Ideal.ieee, -EReal.coe_mul]; norm_num

/-- The fill value's pattern denotes `-(15258789 · 2^16)`, a real. -/
private theorem negBig_real : ∃ r : ℝ, negBig = (r : EReal) := by
  refine ⟨-999999995904, ?_⟩
  simp [negBig, Ideal.ofBits, Ideal.ieee, -EReal.coe_mul]; norm_num

/-! ## Finite sums of reals -/

/-- The coercion of a finite real sum is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Leaky relu: the maximum form is the comparison form on the reals -/

/-- For a slope `0 < c ≤ 1`: `max e (c·e)` is `e` where `0 ≤ e` and `c·e` below. -/
private theorem lreluMax_coe (r : ℝ) : lreluMax (r : EReal) = lrelu (r : EReal) := by
  obtain ⟨c, hc0, hc1, hc⟩ := slope_real
  unfold lreluMax lrelu
  rw [hc]
  by_cases h : 0 ≤ r
  · rw [if_pos (EReal.coe_nonneg.mpr h)]
    apply max_eq_left
    rw [← EReal.coe_mul, EReal.coe_le_coe_iff]
    nlinarith [mul_nonneg (sub_nonneg.mpr hc1) h]
  · rw [if_neg (fun h' => h (EReal.coe_nonneg.mp h'))]
    apply max_eq_right
    rw [← EReal.coe_mul, EReal.coe_le_coe_iff]
    nlinarith [mul_nonneg (sub_nonneg.mpr hc1) (neg_nonneg.mpr (not_le.mp h).le)]

/-- Leaky relu of a real is a real. -/
private theorem lrelu_real (r : ℝ) : ∃ r' : ℝ, lrelu (r : EReal) = (r' : EReal) := by
  obtain ⟨c, _, _, hc⟩ := slope_real
  unfold lrelu
  split_ifs
  · exact ⟨r, rfl⟩
  · exact ⟨c * r, by rw [hc, EReal.coe_mul]⟩

/-- With real scores the two spellings of the masked logits agree. -/
private theorem logitMax_eq_logit (s1 s2 : Fin 8192 → EReal) (msk : Fin 8192 → Fin 8192 → BitVec 1)
    (h1 : ∀ i, ∃ r : ℝ, s1 i = (r : EReal)) (h2 : ∀ i, ∃ r : ℝ, s2 i = (r : EReal)) :
    logitMax s1 s2 msk = logit s1 s2 msk := by
  funext i j
  obtain ⟨r1, hr1⟩ := h1 i
  obtain ⟨r2, hr2⟩ := h2 j
  unfold logitMax logit
  rw [hr1, hr2, ← EReal.coe_add, lreluMax_coe]

/-- With real scores every masked logit is a real. -/
private theorem logit_real (s1 s2 : Fin 8192 → EReal) (msk : Fin 8192 → Fin 8192 → BitVec 1)
    (h1 : ∀ i, ∃ r : ℝ, s1 i = (r : EReal)) (h2 : ∀ i, ∃ r : ℝ, s2 i = (r : EReal)) (i j : Fin 8192) :
    ∃ r : ℝ, logit s1 s2 msk i j = (r : EReal) := by
  obtain ⟨r1, hr1⟩ := h1 i
  obtain ⟨r2, hr2⟩ := h2 j
  unfold logit
  split_ifs
  · rw [hr1, hr2, ← EReal.coe_add]; exact lrelu_real _
  · exact negBig_real

/-! ## Maxima: real, and least upper bounds -/

/-- A fold of `max` from `-∞` over a nonempty finite family of reals is its largest member, a real. -/
private theorem fold_max_real {ι : Type*} (s : Finset ι) (hs : s.Nonempty) (g : ι → ℝ) :
    ∃ m : ℝ, s.fold max ⊥ (fun i => (g i : EReal)) = (m : EReal) := by
  obtain ⟨i0, hi0, hmax⟩ := Finset.exists_max_image s g hs
  refine ⟨g i0, le_antisymm ?_ ?_⟩
  · exact (Finset.fold_max_le _).mpr ⟨bot_le, fun i hi => EReal.coe_le_coe_iff.mpr (hmax i hi)⟩
  · exact (Finset.le_fold_max _).mpr (Or.inr ⟨i0, hi0, le_refl _⟩)

/-- Every running maximum of a real row is a real. -/
private theorem mRun_real (z : Fin 8192 → EReal) (zr : Fin 8192 → ℝ) (hz : ∀ j, z j = (zr j : EReal)) (b : ℕ) :
    ∃ m : ℝ, mRun z b = (m : EReal) := by
  have hblk : ∀ b, ∃ m : ℝ, blkMax z b = (m : EReal) := by
    intro b
    unfold blkMax
    simp only [hz]
    exact fold_max_real _ Finset.univ_nonempty (fun k => zr (col b k))
  induction b with
  | zero =>
    obtain ⟨m, hm⟩ := hblk 0
    exact ⟨m, by rw [mRun, hm, max_eq_right bot_le]⟩
  | succ b ih =>
    obtain ⟨m, hm⟩ := ih
    obtain ⟨m', hm'⟩ := hblk (b + 1)
    refine ⟨max m m', ?_⟩
    rw [mRun, hm, hm']
    exact (EReal.coe_strictMono.monotone.map_max).symm

/-- The running maximum after blocks `0 … b` is the least upper bound of their keys' logits. -/
private theorem mRun_le_iff (z : Fin 8192 → EReal) (c : EReal) (b : ℕ) :
    mRun z b ≤ c ↔ ∀ b' ≤ b, ∀ k : Fin 1024, z (col b' k) ≤ c := by
  have hblk : ∀ b, blkMax z b ≤ c ↔ ∀ k : Fin 1024, z (col b k) ≤ c := by
    intro b
    unfold blkMax
    rw [Finset.fold_max_le]
    simp
  induction b with
  | zero =>
    rw [mRun, max_le_iff, hblk]
    constructor
    · rintro ⟨_, h⟩ b' hb' k
      obtain rfl : b' = 0 := Nat.le_zero.mp hb'
      exact h k
    · intro h
      exact ⟨bot_le, h 0 le_rfl⟩
  | succ b ih =>
    rw [mRun, max_le_iff, hblk]
    constructor
    · rintro ⟨h1, h2⟩ b' hb' k
      rcases Nat.le_succ_iff.mp hb' with h | h
      · exact ih.mp h1 b' h k
      · subst h; exact h2 k
    · intro h
      exact ⟨ih.mpr (fun b' hb' k => h b' (Nat.le_succ_of_le hb') k), h (b + 1) le_rfl⟩

/-- The row maximum is the least upper bound of the row's logits. -/
private theorem rowMax_le_iff (z : Fin 8192 → EReal) (c : EReal) : rowMax z ≤ c ↔ ∀ j, z j ≤ c := by
  unfold rowMax
  rw [Finset.fold_max_le]
  simp

/-- Every key lies in one of the eight blocks. -/
private theorem col_cover (j : Fin 8192) : ∃ b' ≤ 7, ∃ k : Fin 1024, col b' k = j := by
  have hj := j.isLt
  refine ⟨j.val / 1024, by omega, ⟨j.val % 1024, Nat.mod_lt _ (by norm_num)⟩, ?_⟩
  apply Fin.ext
  show (j.val / 1024 * 1024 + j.val % 1024) % 8192 = j.val
  omega

/-- After the eighth block the running maximum is the row maximum: both are the least upper bound of all keys. -/
private theorem mRun_seven (z : Fin 8192 → EReal) : mRun z 7 = rowMax z := by
  apply eq_of_forall_ge_iff
  intro c
  rw [mRun_le_iff, rowMax_le_iff]
  constructor
  · intro h j
    obtain ⟨b', hb', k, rfl⟩ := col_cover j
    exact h b' hb' k
  · intro h b' _ k
    exact h _

/-! ## The online-softmax recurrence over the reals -/

/-- For a real row and a real column, with real running maxima `m`: the accumulator after blocks `0 … b` is the
    sum over those blocks' keys of `exp (z - m b) · v`. The first block's rescaling multiplies `0`; each later
    rescaling is `exp (m b - m (b+1)) · exp (z - m b) = exp (z - m (b+1))`, distributed over the sum. -/
private theorem accRun_real (z v : Fin 8192 → EReal) (zr vr : Fin 8192 → ℝ)
    (hz : ∀ j, z j = (zr j : EReal)) (hv : ∀ j, v j = (vr j : EReal))
    (m : ℕ → ℝ) (hm : ∀ b, mRun z b = (m b : EReal)) (b : ℕ) :
    accRun z v b = ((∑ b' ∈ Finset.range (b + 1), ∑ k : Fin 1024,
      Real.exp (zr (col b' k) - m b) * vr (col b' k) : ℝ) : EReal) := by
  have hblk : ∀ b, ∑ k : Fin 1024, Ideal.exp (z (col b k) - mRun z b) * v (col b k)
      = ((∑ k : Fin 1024, Real.exp (zr (col b k) - m b) * vr (col b k) : ℝ) : EReal) := by
    intro b
    rw [coe_sum]
    refine Finset.sum_congr rfl (fun k _ => ?_)
    rw [hz, hv, hm, ← EReal.coe_sub, Ideal.exp_coe, ← EReal.coe_mul]
  induction b with
  | zero =>
    rw [accRun, mul_zero, zero_add, hblk, Finset.sum_range_succ, Finset.range_zero, Finset.sum_empty, zero_add]
  | succ b ih =>
    rw [accRun, ih, hblk, hm, hm, ← EReal.coe_sub, Ideal.exp_coe, ← EReal.coe_mul, ← EReal.coe_add,
      Finset.sum_range_succ _ (b + 1)]
    congr 2
    rw [Finset.mul_sum]
    refine Finset.sum_congr rfl (fun b' _ => ?_)
    rw [Finset.mul_sum]
    refine Finset.sum_congr rfl (fun k _ => ?_)
    have he : m b - m (b + 1) + (zr (col b' k) - m b) = zr (col b' k) - m (b + 1) := by ring
    rw [← mul_assoc, ← Real.exp_add, he]

/-- The eight blocks of 1024 keys enumerate the 8192 keys once each. -/
private theorem sum_blocks (g : Fin 8192 → ℝ) :
    ∑ b' ∈ Finset.range 8, ∑ k : Fin 1024, g (col b' k) = ∑ j : Fin 8192, g j := by
  rw [Finset.sum_range (fun b' => ∑ k : Fin 1024, g (col b' k)),
    ← Fintype.sum_prod_type' (fun (b' : Fin 8) (k : Fin 1024) => g (col b' k))]
  refine Fintype.sum_equiv (finProdFinEquiv (m := 8) (n := 1024)) _ _ (fun p => ?_)
  congr 1
  apply Fin.ext
  have h1 := p.1.isLt
  have h2 := p.2.isLt
  show (p.1.val * 1024 + p.2.val) % 8192 = p.2.val + 1024 * p.1.val
  omega

/-! ## One row: divide once at the end, or normalise each weight -/

private theorem kerOut_eq_refOut (h : Fin 8192 → Fin 64 → EReal) (haug : Fin 8192 → Fin 65 → EReal)
    (z : Fin 8192 → Fin 8192 → EReal) (hr : Fin 8192 → Fin 64 → ℝ) (hh : ∀ j f, h j f = (hr j f : EReal))
    (hcast : ∀ j (f : Fin 64), haug j f.castSucc = h j f) (hlast : ∀ j, haug j (Fin.last 64) = 1)
    (hz : ∀ i j, ∃ r : ℝ, z i j = (r : EReal)) (i : Fin 8192) (f : Fin 64) :
    kerOut haug z i f = refOut h z i f := by
  choose zr hzr using hz i
  choose m hm using mRun_real (z i) zr hzr
  have hM : rowMax (z i) = (m 7 : EReal) := by rw [← mRun_seven, hm]
  -- the unnormalised weights, as reals
  have hpexp : ∀ j, pexp (z i) j = ((Real.exp (zr j - m 7) : ℝ) : EReal) := by
    intro j
    rw [pexp, hM, hzr, ← EReal.coe_sub, Ideal.exp_coe]
  -- the accumulator of any real column after the eighth block: one sum over all keys
  have hacc : ∀ (v : Fin 8192 → EReal) (vr : Fin 8192 → ℝ), (∀ j, v j = (vr j : EReal)) →
      accRun (z i) v 7 = ((∑ j, Real.exp (zr j - m 7) * vr j : ℝ) : EReal) := by
    intro v vr hv
    rw [accRun_real (z i) v zr vr hzr hv m hm 7]
    congr 1
    exact sum_blocks (fun j => Real.exp (zr j - m 7) * vr j)
  -- the normaliser is a positive real
  have hL : 0 < ∑ j, Real.exp (zr j - m 7) :=
    Finset.sum_pos (fun j _ => Real.exp_pos _) ⟨0, Finset.mem_univ _⟩
  have hden : (0 : EReal) + ∑ j', pexp (z i) j' = ((∑ j, Real.exp (zr j - m 7) : ℝ) : EReal) := by
    rw [zero_add, coe_sum]
    exact Finset.sum_congr rfl (fun j _ => hpexp j)
  have hterm : ∀ j, Ideal.div (pexp (z i) j) ((∑ j, Real.exp (zr j - m 7) : ℝ) : EReal) * h j f
      = ((Real.exp (zr j - m 7) * (1 / ∑ j, Real.exp (zr j - m 7)) * hr j f : ℝ) : EReal) := by
    intro j
    rw [Ideal.div_coe hL.ne', hpexp, hh, ← EReal.coe_mul, ← EReal.coe_mul]
  unfold kerOut refOut
  congr 1
  rw [hacc (fun j => haug j f.castSucc) (fun j => hr j f) (fun j => by rw [hcast, hh]),
    hacc (fun j => haug j (Fin.last 64)) (fun _ => 1) (fun j => by rw [hlast, EReal.coe_one]),
    hden, Finset.sum_congr rfl (fun j _ => hterm j), ← coe_sum]
  simp only [mul_one]
  rw [Ideal.div_coe hL.ne', ← EReal.coe_mul]
  congr 1
  rw [Finset.sum_mul]
  exact Finset.sum_congr rfl (fun j _ => by ring)

/-! ## The two programs -/

/-- For finite `x`, `W`, `a` the two results agree at every index. -/
theorem kerFn_eq_refFn (x : (⟨2, ![8192, 256]⟩ : Shape).Idx → EReal) (adj : (⟨2, ![8192, 8192]⟩ : Shape).Idx → BitVec 32)
    (W : (⟨2, ![256, 64]⟩ : Shape).Idx → EReal) (a : (⟨2, ![128, 1]⟩ : Shape).Idx → EReal)
    (hx : ∀ i, ∃ r : ℝ, x i = (r : EReal)) (hW : ∀ i, ∃ r : ℝ, W i = (r : EReal)) (ha : ∀ i, ∃ r : ℝ, a i = (r : EReal)) :
    kerFn x adj W a = refFn x adj W a := by
  choose xr hxr using hx
  choose Wr hWr using hW
  choose ar har using ha
  -- the projected features and the two score vectors are reals
  have hh : ∀ j f, hOf x W j f = ((∑ k : Fin 256, xr (ix2 j k) * Wr (ix2 k f) : ℝ) : EReal) := by
    intro j f
    unfold hOf
    rw [coe_sum]
    exact Finset.sum_congr rfl (fun k _ => by rw [hxr, hWr, EReal.coe_mul])
  have hs1 : ∀ i, ∃ r : ℝ, s1Of x W a i = (r : EReal) := by
    intro i
    refine ⟨∑ f : Fin 64, (∑ k : Fin 256, xr (ix2 i k) * Wr (ix2 k f)) * ar (ix2 (Fin.castAdd 64 f) (0 : Fin 1)), ?_⟩
    unfold s1Of a1Of
    rw [coe_sum]
    exact Finset.sum_congr rfl (fun f _ => by rw [hh, har, EReal.coe_mul])
  have hs2 : ∀ i, ∃ r : ℝ, s2Of x W a i = (r : EReal) := by
    intro i
    refine ⟨∑ f : Fin 64, (∑ k : Fin 256, xr (ix2 i k) * Wr (ix2 k f)) * ar (ix2 (Fin.natAdd 64 f) (0 : Fin 1)), ?_⟩
    unfold s2Of a2Of
    rw [coe_sum]
    exact Finset.sum_congr rfl (fun f _ => by rw [hh, har, EReal.coe_mul])
  -- the appended column is all ones, the others are the features
  have hcast : ∀ j (f : Fin 64), haugOf x W j f.castSucc = hOf x W j f := by
    intro j f
    unfold haugOf
    rw [dif_pos (show (f.castSucc).val < 64 from f.isLt)]
    rfl
  have hlast : ∀ j, haugOf x W j (Fin.last 64) = 1 := by
    intro j
    unfold haugOf
    rw [dif_neg (by simp)]
  funext y
  unfold kerFn refFn
  rw [logitMax_eq_logit _ _ _ hs1 hs2]
  exact kerOut_eq_refOut (hOf x W) (haugOf x W) _ _ hh hcast hlast
    (logit_real _ _ _ hs1 hs2) (y 0) (y 1)

end Gat

end
-- ==== Proof.Finite.lean ====
/-
  The precondition read back: every entry of the three float inputs is a real number.
-/
import proofs.«430184_j75746043232803_3_alg».proof.Pre_finite_inputs
import proofs.«430184_j75746043232803_3_alg».proof.Proof.Gen.Pre_finite_inputs
import Idealize.ShloMosaic.PureOps.Ideal
import Idealize.ShloMosaic.Lib.ValueIdx
import Idealize.ShloMosaic.Lib.ReduceAll

noncomputable section

namespace Cert.FiniteInputs

open Idealize.ShloMosaic Idealize.ShloMosaic.ValueIdx Cert.Pre_finite_inputs

/-- The bit pattern `0x7F800000` (sign 0, exponent all ones, fraction 0) denotes `+∞`. -/
private theorem inf_bits : Ideal.ofBits .f32 0x7F800000#32 = (⊤ : EReal) := by
  simp [Ideal.ofBits, Ideal.ieee]

/-- An extended real whose absolute value `max v (-v)` lies strictly below `+∞` is a real number:
    at `⊥` and at `⊤` the absolute value is `⊤`, which is not below itself. -/
private theorem real_of_abs_lt_top (v : EReal)
    (h : Ideal.cmp .olt (max v (-v)) ⊤ = 1#1) : ∃ r : ℝ, v = (r : EReal) := by
  induction v using EReal.rec with
  | bot => simp [Ideal.cmp] at h
  | coe r => exact ⟨r, rfl⟩
  | top => simp [Ideal.cmp] at h

/-- The elementwise test `|v| < +∞`, read back at one index of an array of any shape. -/
private theorem real_of_test {s : Shape} (v c : FVec Ideal s .f32) (hc : ∀ i, c i = (⊤ : EReal)) (i : s.Idx)
    (h : cmpf .olt (Host.absf v) c i = 1#1) : ∃ r : ℝ, v i = (r : EReal) := by
  refine real_of_abs_lt_top (v i) ?_
  rw [← hc i]
  exact h

/-- If `finite_inputs` is all ones at the extended reals, then `x`, `W` and `a` hold real numbers only. -/
theorem real_of_pre (x : FVec Ideal S8192x256 .f32) (adj : IVec S8192x8192 32) (W : FVec Ideal S256x64 .f32) (a : FVec Ideal S128x1 .f32)
    (h : Cert.Pre_finite_inputs.fn (F := Ideal) x adj W a = fun _ => 1#1) :
    (∀ i, ∃ r : ℝ, x i = (r : EReal)) ∧ (∀ i, ∃ r : ℝ, W i = (r : EReal)) ∧ (∀ i, ∃ r : ℝ, a i = (r : EReal)) := by
  -- the result has rank 0, so it has exactly one index
  haveI : Subsingleton S_.Idx := ⟨fun a b => funext fun d => d.elim0⟩
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  have hc : ∀ (s : Shape) (hb : S_.BroadcastsInDim s (![] : Fin 0 → Fin s.rank)) (i : s.Idx),
      broadcastInDim s ![] hb (constant (F := Ideal) S_ .f32 0x7F800000#32) i = (⊤ : EReal) :=
    fun s hb i => inf_bits
  refine ⟨fun i => ?_, fun i => ?_, fun i => ?_⟩
  · exact real_of_test x _ (hc _ _) i (Host.reduce_andi_all _ _ _ _ _ h1 i)
  · exact real_of_test W _ (hc _ _) i (Host.reduce_andi_all _ _ _ _ _ h2 i)
  · exact real_of_test a _ (hc _ _) i (Host.reduce_andi_all _ _ _ _ _ h3 i)

end Cert.FiniteInputs

end
-- ==== Proof.lean ====
/-
  A graph-attention layer over 8192 nodes: for every query row the masked, leaky-relu'd attention logits are
  soft-maxed over the keys and the projected features are averaged with those weights, then passed through elu.
  The kernel computes the soft-max on line — eight blocks of 1024 keys, a running row maximum, the accumulator
  rescaled whenever the maximum moves, the normaliser carried in an all-ones feature column, one division at the
  end —, the reference normalises the weights first. With finite inputs every quantity on the way is a real
  number, and over the reals the two are the same function of the arguments (Proof/Algebra.lean). What each
  program's run leaves in its result buffer is read in Proof/KerValue.lean and Proof/RefValue.lean; that the
  inputs are real, out of the precondition, in Proof/Finite.lean.
-/
import proofs.«430184_j75746043232803_3_alg».proof.Defs
import proofs.«430184_j75746043232803_3_alg».proof.Proof.Gen.Kernel
import proofs.«430184_j75746043232803_3_alg».proof.Proof.Gen.Kernel.Frame
import proofs.«430184_j75746043232803_3_alg».proof.Proof.Gen.KernelIdeal
import proofs.«430184_j75746043232803_3_alg».proof.Proof.Gen.KernelIdeal.Frame
import proofs.«430184_j75746043232803_3_alg».proof.Proof.Gen.ReferenceIdeal
import proofs.«430184_j75746043232803_3_alg».proof.Proof.Gen.Pre_finite_inputs
import proofs.«430184_j75746043232803_3_alg».proof.Proof.KerValue
import proofs.«430184_j75746043232803_3_alg».proof.Proof.RefValue
import proofs.«430184_j75746043232803_3_alg».proof.Proof.Algebra
import proofs.«430184_j75746043232803_3_alg».proof.Proof.Finite

noncomputable section

namespace Cert.Proof

open Idealize.ShloMosaic Idealize.SL.Sem

/-- The word-level kernel runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs: its value run with the result forgotten. -/
theorem frame_ri : Cert.frame_ReferenceIdeal := fun m ρ _ =>
  (θ_run Cert.ReferenceIdeal.defs _ _).mono (fun _ h c => (h c).2) (Cert.ReferenceIdeal.RefValue.run m ρ)

/-- Both runs end at one function of the (agreeing, finite) arguments. -/
theorem algebraic : Cert.algebraic_KernelIdeal_ReferenceIdeal := by
  intro m ρ m' ρ' hpre hagree
  refine ⟨fun c => Gat.kerFn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  obtain ⟨hx, hW, ha⟩ := Cert.FiniteInputs.real_of_pre _ _ _ _ (hpre c)
  exact (Gat.kerFn_eq_refFn _ _ _ _ hx hW ha).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
